-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x65536x128 : Shape := ⟨3, ![8, 65536, 128]⟩
abbrev S8x16 : Shape := ⟨2, ![8, 16]⟩
abbrev S_ : Shape := ⟨0, ![]⟩

class Facts : Prop where
  bcast_S_S8x65536x128 : S_.BroadcastsInDim S8x65536x128 (![] : Fin 0 → Fin S8x65536x128.rank)
  reducesTo_S8x65536x128_S_d0_1_2 : S8x65536x128.ReducesTo [0, 1, 2] S_
  h_S_ : 0 < S_.numel
  bcast_S_S8x16 : S_.BroadcastsInDim S8x16 (![] : Fin 0 → Fin S8x16.rank)
  reducesTo_S8x16_S_d0_1 : S8x16.ReducesTo [0, 1] S_

variable [Facts]

def fn {F : FTy → Type} [FloatOps F] (main_arg0 : FVec F S8x65536x128 .f32) (main_arg1 : FVec F S8x16 .f32) : IVec S_ 1 :=
  let main_v0 : FVec F S8x65536x128 .f32 := Host.absf main_arg0
  let main_cst : FVec F S_ .f32 := constant S_ .f32 0x7F800000#32
  let main_v1 : FVec F S8x65536x128 .f32 := broadcastInDim S8x65536x128 ![] bcast_S_S8x65536x128 main_cst
  let main_v2 : IVec S8x65536x128 1 := cmpf .olt main_v0 main_v1
  let main_c : IVec S_ 1 := constantI S_ 1 1#1
  let main_v3 : IVec S_ 1 := (fun x v => Host.reduce IntOp.andi x v reducesTo_S8x65536x128_S_d0_1_2 h_S_) main_v2 main_c
  let main_v4 : FVec F S8x16 .f32 := Host.absf main_arg1
  let main_cst_0 : FVec F S_ .f32 := constant S_ .f32 0x7F800000#32
  let main_v5 : FVec F S8x16 .f32 := broadcastInDim S8x16 ![] bcast_S_S8x16 main_cst_0
  let main_v6 : IVec S8x16 1 := cmpf .olt main_v4 main_v5
  let main_c_1 : IVec S_ 1 := constantI S_ 1 1#1
  let main_v7 : IVec S_ 1 := (fun x v => Host.reduce IntOp.andi x v reducesTo_S8x16_S_d0_1 h_S_) main_v6 main_c_1
  let main_v8 : IVec S_ 1 := andi main_v3 main_v7
  main_v8
-- ==== Kernel.lean ====
abbrev S8x65536x128 : Shape := ⟨3, ![8, 65536, 128]⟩
abbrev S8x16 : Shape := ⟨2, ![8, 16]⟩
abbrev S128 : Shape := ⟨1, ![128]⟩
abbrev S_ : Shape := ⟨0, ![]⟩
abbrev S128x1 : Shape := ⟨2, ![128, 1]⟩
abbrev S1x16 : Shape := ⟨2, ![1, 16]⟩
abbrev S128x16 : Shape := ⟨2, ![128, 16]⟩
abbrev S8x1x16 : Shape := ⟨3, ![8, 1, 16]⟩
abbrev S1x16384x128 : Shape := ⟨3, ![1, 16384, 128]⟩
abbrev S1x1x16 : Shape := ⟨3, ![1, 1, 16]⟩
abbrev S1x8192x128 : Shape := ⟨3, ![1, 8192, 128]⟩
abbrev S8192x128 : Shape := ⟨2, ![8192, 128]⟩
abbrev S8192x16 : Shape := ⟨2, ![8192, 16]⟩
abbrev S8192 : Shape := ⟨1, ![8192]⟩
abbrev S8192x1 : Shape := ⟨2, ![8192, 1]⟩
abbrev S16 : Shape := ⟨1, ![16]⟩
abbrev S8 : Shape := ⟨1, ![8]⟩
abbrev S8x1 : Shape := ⟨2, ![8, 1]⟩

abbrev nBuf : Space → Nat
  | .hbm => 76
  | .vmem => 5
  | .smem => 0
  | _ => 0

abbrev bufTy : (tb : Table) → Fin (tcTables nBuf tb) → BufTy
  | .hbm, ⟨0, _⟩ => ⟨S8x65536x128, .f32⟩
  | .hbm, ⟨1, _⟩ => ⟨S8x16, .f32⟩
  | .hbm, ⟨2, _⟩ => ⟨S128, .i32⟩
  | .hbm, ⟨3, _⟩ => ⟨S_, .i32⟩
  | .hbm, ⟨4, _⟩ => ⟨S_, .i32⟩
  | .hbm, ⟨5, _⟩ => ⟨S128, .i32⟩
  | .hbm, ⟨6, _⟩ => ⟨S128, .i32⟩
  | .hbm, ⟨7, _⟩ => ⟨S128, .i32⟩
  | .hbm, ⟨8, _⟩ => ⟨S_, .i32⟩
  | .hbm, ⟨9, _⟩ => ⟨S128, .i32⟩
  | .hbm, ⟨10, _⟩ => ⟨S128, .i1⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S128, .i1⟩
  | .hbm, ⟨17, _⟩ => ⟨S_, .i32⟩
  | .hbm, ⟨18, _⟩ => ⟨S128, .i32⟩
  | .hbm, ⟨19, _⟩ => ⟨S128, .i32⟩
  | .hbm, ⟨20, _⟩ => ⟨S128, .i32⟩
  | .hbm, ⟨21, _⟩ => ⟨S128x1, .i32⟩
  | .hbm, ⟨22, _⟩ => ⟨S1x16, .i32⟩
  | .hbm, ⟨23, _⟩ => ⟨S128x16, .i32⟩
  | .hbm, ⟨24, _⟩ => ⟨S128x16, .i32⟩
  | .hbm, ⟨25, _⟩ => ⟨S128x16, .i1⟩
  | .hbm, ⟨26, _⟩ => ⟨S128x16, .f32⟩
  | .hbm, ⟨27, _⟩ => ⟨S8x1x16, .f32⟩
  | .hbm, ⟨28, _⟩ => ⟨S8x16, .f32⟩
  | .hbm, ⟨29, _⟩ => ⟨S_, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S8x1, .f32⟩
  | .hbm, ⟨35, _⟩ => ⟨S8x16, .f32⟩
  | .hbm, ⟨36, _⟩ => ⟨S8x16, .f32⟩
  | .hbm, ⟨37, _⟩ => ⟨S8x16, .f32⟩
  | .hbm, ⟨38, _⟩ => ⟨S_, .f32⟩
  | .hbm, ⟨39, _⟩ => ⟨S8, .f32⟩
  | .hbm, ⟨40, _⟩ => ⟨S8x1, .f32⟩
  | .hbm, ⟨41, _⟩ => ⟨S8x16, .f32⟩
  | .hbm, ⟨42, _⟩ => ⟨S8x16, .f32⟩
  | .hbm, ⟨43, _⟩ => ⟨S_, .f32⟩
  | .hbm, ⟨44, _⟩ => ⟨S8x16, .f32⟩
  | .hbm, ⟨45, _⟩ => ⟨S8x16, .f32⟩
  | .hbm, ⟨46, _⟩ => ⟨S_, .f32⟩
  | .hbm, ⟨47, _⟩ => ⟨S8, .f32⟩
  | .hbm, ⟨48, _⟩ => ⟨S_, .f32⟩
  | .hbm, ⟨49, _⟩ => ⟨S8, .f32⟩
  | .hbm, ⟨50, _⟩ => ⟨S8, .f32⟩
  | .hbm, ⟨51, _⟩ => ⟨S8x1, .f32⟩
  | .hbm, ⟨52, _⟩ => ⟨S8x16, .f32⟩
  | .hbm, ⟨53, _⟩ => ⟨S8x16, .f32⟩
  | .hbm, ⟨54, _⟩ => ⟨S8x16, .f32⟩
  | .hbm, ⟨55, _⟩ => ⟨S_, .f32⟩
  | .hbm, ⟨56, _⟩ => ⟨S8, .f32⟩
  | .hbm, ⟨57, _⟩ => ⟨S8x1, .f32⟩
  | .hbm, ⟨58, _⟩ => ⟨S8x16, .f32⟩
  | .hbm, ⟨59, _⟩ => ⟨S8x16, .f32⟩
  | .hbm, ⟨60, _⟩ => ⟨S_, .f32⟩
  | .hbm, ⟨61, _⟩ => ⟨S8x16, .f32⟩
  | .hbm, ⟨62, _⟩ => ⟨S8x16, .f32⟩
  | .hbm, ⟨63, _⟩ => ⟨S8x16, .f32⟩
  | .hbm, ⟨64, _⟩ => ⟨S8x16, .f32⟩
  | .hbm, ⟨65, _⟩ => ⟨S8x16, .f32⟩
  | .hbm, ⟨66, _⟩ => ⟨S8x16, .f32⟩
  | .hbm, ⟨67, _⟩ => ⟨S_, .f32⟩
  | .hbm, ⟨68, _⟩ => ⟨S8, .f32⟩
  | .hbm, ⟨69, _⟩ => ⟨S_, .f32⟩
  | .hbm, ⟨70, _⟩ => ⟨S8, .f32⟩
  | .hbm, ⟨71, _⟩ => ⟨S8, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .local _ .vmem, ⟨0, _⟩ => ⟨S1x16384x128, .f32⟩
  | .local _ .vmem, ⟨1, _⟩ => ⟨S1x16384x128, .f32⟩
  | .local _ .vmem, ⟨2, _⟩ => ⟨S128x16, .f32⟩
  | .local _ .vmem, ⟨3, _⟩ => ⟨S1x1x16, .f32⟩
  | .local _ .vmem, ⟨4, _⟩ => ⟨S1x1x16, .f32⟩
  | _, _ => ⟨S8x65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_c : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_c_0 : Ref sig .tc := ⟨.hbm, 17, rfl⟩
abbrev main_call0_v12 : Ref sig .tc := ⟨.hbm, 18, rfl⟩
abbrev main_call0_v13 : Ref sig .tc := ⟨.hbm, 19, rfl⟩
abbrev main_v1 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_cst : Ref sig .tc := ⟨.hbm, 29, rfl⟩
abbrev main_v5 : Ref sig .tc := ⟨.hbm, 30, rfl⟩
abbrev main_cst_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst_1 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_2 : Ref sig .tc := ⟨.hbm, 43, rfl⟩
abbrev main_v16 : Ref sig .tc := ⟨.hbm, 44, rfl⟩
abbrev main_v17 : Ref sig .tc := ⟨.hbm, 45, rfl⟩
abbrev main_cst_3 : Ref sig .tc := ⟨.hbm, 46, rfl⟩
abbrev main_v18 : Ref sig .tc := ⟨.hbm, 47, rfl⟩
abbrev main_cst_4 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst_5 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_6 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst_7 : Ref sig .tc := ⟨.hbm, 67, rfl⟩
abbrev main_v35 : Ref sig .tc := ⟨.hbm, 68, rfl⟩
abbrev main_cst_8 : Ref sig .tc := ⟨.hbm, 69, rfl⟩
abbrev main_v36 : Ref sig .tc := ⟨.hbm, 70, rfl⟩
abbrev main_v37 : Ref sig .tc := ⟨.hbm, 71, rfl⟩
abbrev main_cst_9 : Ref sig .tc := ⟨.hbm, 72, rfl⟩
abbrev main_v38 : Ref sig .tc := ⟨.hbm, 73, rfl⟩
abbrev main_cst_10 : Ref sig .tc := ⟨.hbm, 74, rfl⟩
abbrev main_v39 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_2 : BitVec 32 := 0#32
  let c2_i32 : BitVec 32 := 2#32
  let v7 : BitVec 32 := Scalar.addi c0_i32_2 c2_i32
  let c1_i32 : BitVec 32 := 1#32
  ⟨c0_i32_2, v7, c1_i32⟩
def k0_mult1 (k0_t1 : Fin k0_t1_loop.trips) : BitVec 32 :=
  let c0_i32_2 : BitVec 32 := 0#32
  let c1_i32 : BitVec 32 := 1#32
  let arg5 : BitVec 32 := Scf.iv c0_i32_2 c1_i32 k0_t1
  let c8192_i32 : BitVec 32 := 8192#32
  let v17 : BitVec 32 := Scalar.muli arg5 c8192_i32
  v17
def k0_off1 (k0_t1 : Fin k0_t1_loop.trips) : Fin 3 → Nat :=
  let c0_11 : Index := 0#32
  let c0_i32_2 : BitVec 32 := 0#32
  let c1_i32 : BitVec 32 := 1#32
  let arg5 : BitVec 32 := Scf.iv c0_i32_2 c1_i32 k0_t1
  let c8192_i32 : BitVec 32 := 8192#32
  let v17 : BitVec 32 := Scalar.muli arg5 c8192_i32
  let v18 : BitVec 32 := v17
  let v19 : Index := Scalar.indexCast v18
  let c0_12 : Index := 0#32
  ![0, v19.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S128 : S_.BroadcastsInDim S128 (![] : Fin 0 → Fin S128.rank)
  bcast_S128_S128x1_0 : S128.BroadcastsInDim S128x1 (![0] : Fin 1 → Fin S128x1.rank)
  bcast_S128x1_S128x16_0_1 : S128x1.BroadcastsInDim S128x16 (![0, 1] : Fin 2 → Fin S128x16.rank)
  bcast_S1x16_S128x16_0_1 : S1x16.BroadcastsInDim S128x16 (![0, 1] : Fin 2 → Fin S128x16.rank)
  inb_S1x1x16_S1x1x16_0_0_0 : ∀ a, (![0, 0, 0] : Fin 3 → Nat) a + S1x1x16.size a ≤ S1x1x16.size a
  h_S1x1x16 : 0 < S1x1x16.numel
  inb_S128x16_S128x16_0_0 : ∀ a, (![0, 0] : Fin 2 → Nat) a + S128x16.size a ≤ S128x16.size a
  h_S128x16 : 0 < S128x16.numel
  shapeCasts_S128x16_S128x16 : S128x16.ShapeCasts S128x16
  bitsLt_bf16_f32 : FTy.bits .bf16 < FTy.bits .f32
  h_S1x8192x128 : 0 < S1x8192x128.numel
  shapeCasts_S1x8192x128_S8192x128 : S1x8192x128.ShapeCasts S8192x128
  reduces_S8192x16_S8192 : S8192x16.Reduces [1] S8192
  shapeCasts_S8192_S8192x1 : S8192.ShapeCasts S8192x1
  broadcasts_S8192x1_S8192x16 : S8192x1.Broadcasts S8192x16
  reduces_S8192x16_S16 : S8192x16.Reduces [0] S16
  shapeCasts_S16_S1x16 : S16.ShapeCasts S1x16
  shapeCasts_S1x1x16_S1x1x16 : S1x1x16.ShapeCasts S1x1x16
  shapeCasts_S1x16_S1x1x16 : S1x16.ShapeCasts S1x1x16
  shapeCasts_S8x1x16_S8x16 : S8x1x16.ShapeCasts S8x16
  reducesTo_S8x16_S8_d1 : S8x16.ReducesTo [1] S8
  h_S_ : 0 < S_.numel
  bcast_S_S8 : S_.BroadcastsInDim S8 (![] : Fin 0 → Fin S8.rank)
  bcast_S8_S8x1_0 : S8.BroadcastsInDim S8x1 (![0] : Fin 1 → Fin S8x1.rank)
  bcast_S8x1_S8x16_0_1 : S8x1.BroadcastsInDim S8x16 (![0, 1] : Fin 2 → Fin S8x16.rank)
  bcast_S_S8x16 : S_.BroadcastsInDim S8x16 (![] : Fin 0 → Fin S8x16.rank)
  reducesTo_S8_S_d0 : S8.ReducesTo [0] S_
  dot_S8192x128_S128x16_S8192x16_1_0_0_1_n_n_wf : DotDims.WF S8192x128 S128x16 S8192x16 [1] [0] [0] [1] [] []
  hrank0 : 0 < grid0.rank
  k0_t1_ok : k0_t1_loop.OK
  k0_mult1_dvd : ∀ k0_t1 : Fin k0_t1_loop.trips, 8192 ∣ (k0_mult1 k0_t1).toNat
  k0_off1_inb : ∀ k0_t1 : Fin k0_t1_loop.trips, ∀ a, (k0_off1 k0_t1) a + S1x8192x128.size a ≤ S1x16384x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16384x128.size a ≤ S8x65536x128.size a
  hwx0_0 : ∀ i : grid0.Coords, EltTy.bits .f32 = 32 ∨ (Rect.block (s := S8x65536x128) S1x16384x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x16.size a ≤ S8x1x16.size a
  hwx0_2 : ∀ i : grid0.Coords, EltTy.bits .f32 = 32 ∨ (Rect.block (s := S8x1x16) S1x1x16.size (cc0_transform_2 i) (hinb0_2 i)).WholeWords (EltTy.packing .f32)

variable [Facts₀]

def dot_S8192x128_S128x16_S8192x16_1_0_0_1_n_n : DotDims S8192x128 S128x16 S8192x16 where
  lhsContracting := [1]
  rhsContracting := [0]
  lhsNonContracting := [0]
  rhsNonContracting := [1]
  lhsBatch := []
  rhsBatch := []
  wf := dot_S8192x128_S128x16_S8192x16_1_0_0_1_n_n_wf

abbrev win0_0 : Pipeline.Window sig grid0 :=
  Pipeline.Window.ofSpec (Memref.whole main_arg0) S1x16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x65536x128 : Shape := ⟨3, ![8, 65536, 128]⟩
abbrev S8x16 : Shape := ⟨2, ![8, 16]⟩
abbrev S128x16 : Shape := ⟨2, ![128, 16]⟩
abbrev S_ : Shape := ⟨0, ![]⟩
abbrev S8x65536 : Shape := ⟨2, ![8, 65536]⟩
abbrev S8x65536x1 : Shape := ⟨3, ![8, 65536, 1]⟩
abbrev S8x65536x16 : Shape := ⟨3, ![8, 65536, 16]⟩
abbrev S8 : Shape := ⟨1, ![8]⟩
abbrev S8x1 : Shape := ⟨2, ![8, 1]⟩

abbrev nBuf : Space → Nat
  | .hbm => 70
  | .vmem => 0
  | .smem => 0
  | _ => 0

abbrev bufTy : (tb : Table) → Fin (tcTables nBuf tb) → BufTy
  | .hbm, ⟨0, _⟩ => ⟨S8x65536x128, .f32⟩
  | .hbm, ⟨1, _⟩ => ⟨S8x16, .f32⟩
  | .hbm, ⟨2, _⟩ => ⟨S128x16, .f32⟩
  | .hbm, ⟨3, _⟩ => ⟨S_, .f32⟩
  | .hbm, ⟨4, _⟩ => ⟨S8x65536, .f32⟩
  | .hbm, ⟨5, _⟩ => ⟨S_, .f32⟩
  | .hbm, ⟨6, _⟩ => ⟨S8x65536, .f32⟩
  | .hbm, ⟨7, _⟩ => ⟨S8x65536, .f32⟩
  | .hbm, ⟨8, _⟩ => ⟨S8x65536x1, .f32⟩
  | .hbm, ⟨9, _⟩ => ⟨S8x65536x128, .f32⟩
  | .hbm, ⟨10, _⟩ => ⟨S8x65536x128, .f32⟩
  | .hbm, ⟨11, _⟩ => ⟨S8x65536x128, .f32⟩
  | .hbm, ⟨12, _⟩ => ⟨S_, .f32⟩
  | .hbm, ⟨13, _⟩ => ⟨S8x65536, .f32⟩
  | .hbm, ⟨14, _⟩ => ⟨S8x65536x1, .f32⟩
  | .hbm, ⟨15, _⟩ => ⟨S8x65536x128, .f32⟩
  | .hbm, ⟨16, _⟩ => ⟨S8x65536x128, .f32⟩
  | .hbm, ⟨17, _⟩ => ⟨S8x65536x16, .f32⟩
  | .hbm, ⟨18, _⟩ => ⟨S_, .f32⟩
  | .hbm, ⟨19, _⟩ => ⟨S8x16, .f32⟩
  | .hbm, ⟨20, _⟩ => ⟨S_, .f32⟩
  | .hbm, ⟨21, _⟩ => ⟨S8x16, .f32⟩
  | .hbm, ⟨22, _⟩ => ⟨S8x16, .f32⟩
  | .hbm, ⟨23, _⟩ => ⟨S_, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S8x1, .f32⟩
  | .hbm, ⟨29, _⟩ => ⟨S8x16, .f32⟩
  | .hbm, ⟨30, _⟩ => ⟨S8x16, .f32⟩
  | .hbm, ⟨31, _⟩ => ⟨S8x16, .f32⟩
  | .hbm, ⟨32, _⟩ => ⟨S_, .f32⟩
  | .hbm, ⟨33, _⟩ => ⟨S8, .f32⟩
  | .hbm, ⟨34, _⟩ => ⟨S8x1, .f32⟩
  | .hbm, ⟨35, _⟩ => ⟨S8x16, .f32⟩
  | .hbm, ⟨36, _⟩ => ⟨S8x16, .f32⟩
  | .hbm, ⟨37, _⟩ => ⟨S_, .f32⟩
  | .hbm, ⟨38, _⟩ => ⟨S8x16, .f32⟩
  | .hbm, ⟨39, _⟩ => ⟨S8x16, .f32⟩
  | .hbm, ⟨40, _⟩ => ⟨S_, .f32⟩
  | .hbm, ⟨41, _⟩ => ⟨S8, .f32⟩
  | .hbm, ⟨42, _⟩ => ⟨S_, .f32⟩
  | .hbm, ⟨43, _⟩ => ⟨S8, .f32⟩
  | .hbm, ⟨44, _⟩ => ⟨S8, .f32⟩
  | .hbm, ⟨45, _⟩ => ⟨S8x1, .f32⟩
  | .hbm, ⟨46, _⟩ => ⟨S8x16, .f32⟩
  | .hbm, ⟨47, _⟩ => ⟨S8x16, .f32⟩
  | .hbm, ⟨48, _⟩ => ⟨S8x16, .f32⟩
  | .hbm, ⟨49, _⟩ => ⟨S_, .f32⟩
  | .hbm, ⟨50, _⟩ => ⟨S8, .f32⟩
  | .hbm, ⟨51, _⟩ => ⟨S8x1, .f32⟩
  | .hbm, ⟨52, _⟩ => ⟨S8x16, .f32⟩
  | .hbm, ⟨53, _⟩ => ⟨S8x16, .f32⟩
  | .hbm, ⟨54, _⟩ => ⟨S_, .f32⟩
  | .hbm, ⟨55, _⟩ => ⟨S8x16, .f32⟩
  | .hbm, ⟨56, _⟩ => ⟨S8x16, .f32⟩
  | .hbm, ⟨57, _⟩ => ⟨S8x16, .f32⟩
  | .hbm, ⟨58, _⟩ => ⟨S8x16, .f32⟩
  | .hbm, ⟨59, _⟩ => ⟨S8x16, .f32⟩
  | .hbm, ⟨60, _⟩ => ⟨S8x16, .f32⟩
  | .hbm, ⟨61, _⟩ => ⟨S_, .f32⟩
  | .hbm, ⟨62, _⟩ => ⟨S8, .f32⟩
  | .hbm, ⟨63, _⟩ => ⟨S_, .f32⟩
  | .hbm, ⟨64, _⟩ => ⟨S8, .f32⟩
  | .hbm, ⟨65, _⟩ => ⟨S8, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S8x65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_cst_9 : Ref sig .tc := ⟨.hbm, 40, rfl⟩
abbrev main_v28 : Ref sig .tc := ⟨.hbm, 41, rfl⟩
abbrev main_cst_10 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_11 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_12 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_13 : Ref sig .tc := ⟨.hbm, 61, rfl⟩
abbrev main_v45 : Ref sig .tc := ⟨.hbm, 62, rfl⟩
abbrev main_cst_14 : Ref sig .tc := ⟨.hbm, 63, rfl⟩
abbrev main_v46 : Ref sig .tc := ⟨.hbm, 64, rfl⟩
abbrev main_v47 : Ref sig .tc := ⟨.hbm, 65, rfl⟩
abbrev main_cst_15 : Ref sig .tc := ⟨.hbm, 66, rfl⟩
abbrev main_v48 : Ref sig .tc := ⟨.hbm, 67, rfl⟩
abbrev main_cst_16 : Ref sig .tc := ⟨.hbm, 68, rfl⟩
abbrev main_v49 : Ref sig .tc := ⟨.hbm, 69, rfl⟩

abbrev nD : Nat := 1
abbrev τ : Topo := Topo.v7x

variable {F : FTy → Type} [FloatOps F]

class Facts₀ : Prop where
  reducesTo_S8x65536x128_S8x65536_d2 : S8x65536x128.ReducesTo [2] S8x65536
  h_S_ : 0 < S_.numel
  bcast_S_S8x65536 : S_.BroadcastsInDim S8x65536 (![] : Fin 0 → Fin S8x65536.rank)
  bcast_S8x65536_S8x65536x1_0_1 : S8x65536.BroadcastsInDim S8x65536x1 (![0, 1] : Fin 2 → Fin S8x65536x1.rank)
  bcast_S8x65536x1_S8x65536x128_0_1_2 : S8x65536x1.BroadcastsInDim S8x65536x128 (![0, 1, 2] : Fin 3 → Fin S8x65536x128.rank)
  reducesTo_S8x65536x16_S8x16_d1 : S8x65536x16.ReducesTo [1] S8x16
  bcast_S_S8x16 : S_.BroadcastsInDim S8x16 (![] : Fin 0 → Fin S8x16.rank)
  reducesTo_S8x16_S8_d1 : S8x16.ReducesTo [1] S8
  bcast_S_S8 : S_.BroadcastsInDim S8 (![] : Fin 0 → Fin S8.rank)
  bcast_S8_S8x1_0 : S8.BroadcastsInDim S8x1 (![0] : Fin 1 → Fin S8x1.rank)
  bcast_S8x1_S8x16_0_1 : S8x1.BroadcastsInDim S8x16 (![0, 1] : Fin 2 → Fin S8x16.rank)
  reducesTo_S8_S_d0 : S8.ReducesTo [0] S_
  dot_S8x65536x128_S128x16_S8x65536x16_2_0_01_1_n_n_wf : DotDims.WF S8x65536x128 S128x16 S8x65536x16 [2] [0] [0, 1] [1] [] []

variable [Facts₀]

def dot_S8x65536x128_S128x16_S8x65536x16_2_0_01_1_n_n : DotDims S8x65536x128 S128x16 S8x65536x16 where
  lhsContracting := [2]
  rhsContracting := [0]
  lhsNonContracting := [0, 1]
  rhsNonContracting := [1]
  lhsBatch := []
  rhsBatch := []
  wf := dot_S8x65536x128_S128x16_S8x65536x16_2_0_01_1_n_n_wf

class Facts : Prop extends Facts₀ where

variable [Facts]
-- ==== Proof.Tail.lean ====
/-
  What both programs do with the [8, 16] averaged array `a` and the [8, 16] targets `t`, as ONE function:
  `p = softmax a` and `q = softmax (t / 100)` along the 16 groups (each a shifted softmax: subtract the row's maximum,
  exponentiate, divide by the row's sum), the divergence `∑ q · (log q - log (p + ε))` of each batch entry divided by 16,
  and the mean of the eight entries. The two programs apply exactly these operations in this order, so the equivalence
  never has to look inside: equal averages give equal results.
-/
import Idealize.ShloMosaic.PureOps.Ideal
import Idealize.ShloMosaic.PureOps.Vector
import Idealize.ShloMosaic.PureOps.Contract
import Idealize.ShloMosaic.PureOps.ShapeOps

noncomputable section

open Idealize.ShloMosaic

namespace Cert.GroupedMean

abbrev T_ : Shape := ⟨0, ![]⟩
abbrev T8 : Shape := ⟨1, ![8]⟩
abbrev T8x1 : Shape := ⟨2, ![8, 1]⟩
abbrev T8x16 : Shape := ⟨2, ![8, 16]⟩

/-- The shape relations the tail's reductions and broadcasts take as evidence. -/
structure TailFacts : Prop where
  r1 : T8x16.ReducesTo [1] T8
  h0 : 0 < T_.numel
  b_8 : T_.BroadcastsInDim T8 (![] : Fin 0 → Fin T8.rank)
  b_81 : T8.BroadcastsInDim T8x1 (![0] : Fin 1 → Fin T8x1.rank)
  b_816 : T8x1.BroadcastsInDim T8x16 (![0, 1] : Fin 2 → Fin T8x16.rank)
  b_16 : T_.BroadcastsInDim T8x16 (![] : Fin 0 → Fin T8x16.rank)
  r0 : T8.ReducesTo [0] T_

/-- They hold at these literal shapes. -/
theorem tailFacts : TailFacts := ⟨by decide, by decide, by decide, by decide, by decide, by decide, by decide⟩

variable {F : FTy → Type} [FloatOps F]

/-- A softmax along the second axis of an [8, 16] array: shifted by each row's maximum (a reduce from `-∞`, joined once
    more with `-∞`), exponentiated, divided by each row's sum. -/
def softmaxRows (hf : TailFacts) (x : FVec F T8x16 .f32) : FVec F T8x16 .f32 :=
  let mx : FVec F T8 .f32 := maximumf (broadcastInDim T8 ![] hf.b_8 (constant T_ .f32 0xFF800000#32))
    (Host.reduce FloatOps.maximumf x (constant T_ .f32 0xFF800000#32) hf.r1 hf.h0)
  let e : FVec F T8x16 .f32 := Host.exp (subf x (broadcastInDim T8x16 ![0, 1] hf.b_816 (broadcastInDim T8x1 ![0] hf.b_81 mx)))
  Host.divf e (broadcastInDim T8x16 ![0, 1] hf.b_816 (broadcastInDim T8x1 ![0] hf.b_81
    (Host.reduceAdd e (constant T_ .f32 0x00000000#32) hf.r1 hf.h0)))

/-- The scalar both programs return, from the averaged array and the targets. -/
def tail (hf : TailFacts) (a t : FVec F T8x16 .f32) : FVec F T_ .f32 :=
  let p : FVec F T8x16 .f32 := softmaxRows hf a
  let q : FVec F T8x16 .f32 := softmaxRows hf (Host.divf t (broadcastInDim T8x16 ![] hf.b_16 (constant T_ .f32 0x42C80000#32)))
  let lp : FVec F T8x16 .f32 := Host.log (addf p (broadcastInDim T8x16 ![] hf.b_16 (constant T_ .f32 0x322BCC77#32)))
  let kl : FVec F T8 .f32 := Host.reduceAdd (mulf q (subf (Host.log q) lp)) (constant T_ .f32 0x00000000#32) hf.r1 hf.h0
  Host.divf
    (Host.reduceAdd (Host.divf kl (broadcastInDim T8 ![] hf.b_8 (constant T_ .f32 0x41800000#32)))
      (constant T_ .f32 0x00000000#32) hf.r0 hf.h0)
    (constant T_ .f32 0x41000000#32)

end Cert.GroupedMean

end
-- ==== Proof.KTail.lean ====
/-
  The host operations after the region, read: the scalar the kernel's program returns is the shared tail of the
  region's result array (reshaped from [8, 1, 16] to [8, 16]) and of the targets.
-/
import proofs.«425599_j89300960018699_3_alg».proof.Proof.Gen.KernelIdeal.Frame
import proofs.«425599_j89300960018699_3_alg».proof.Proof.Tail
import Idealize.ShloMosaic.Lib.StableHlo.Run

noncomputable section

namespace Cert.KernelIdeal.KTail

open Idealize.ShloMosaic Idealize.ShloMosaic.TcCoe
open Cert.KernelIdeal Cert.KernelIdeal.Gen Cert.GroupedMean

variable {F : FTy → Type} [FloatOps F]
variable (m : (ℓ : Loc nD τ sig) → Buf (Elt F) ℓ)

/-- The region's result array after the last grid point. -/
abbrev outArr (c : Dev nD) : FVec F S8x1x16 .f32 := (dats m 0 c).arrAt 2 cfg0.N

/-- The 48 operations after the region leave in the result buffer the shared tail of the reshaped result array and of the
    targets as launched. -/
theorem tail_eq (c : Dev nD) :
    Pipeline.afterTail₀ cfgs (dats (F := F) m) 0 (V0 m) [hostOps1] c main_v39
      = (tail tailFacts (shapeCast S8x16 (outArr m c) shapeCasts_S8x1x16_S8x16) (m ((c.tc : Thread nD τ).loc main_arg1)) : FVec F S_ .f32) := by
  unfold Pipeline.afterTail₀
  show StableHlo.after hostOps1 _ (Proc.devRef .tc main_v39) = _
  -- each operation's result buffer holds its function of its operands' buffers
  after_results_simp
  -- at the region's exit the result array is the proof data's, and the targets are as launched
  have e3 : Pipeline.withArrays (cfgs 0).spec c (V0 m c) (fun w => (dats m 0 c).arrAt w (cfgs 0).N) (Proc.devRef .tc main_v3)
      = outArr m c := Pipeline.withArrays_arr spec0 launch0.win.arr_inj c _ _ 2
  have e1 : Pipeline.withArrays (cfgs 0).spec c (V0 m c) (fun w => (dats m 0 c).arrAt w (cfgs 0).N) (Proc.devRef .tc main_arg1)
      = m ((c.tc : Thread nD τ).loc main_arg1) :=
    (Pipeline.withArrays_of_ne spec0 c (V0 m c) _ main_arg1 (by decide)).trans (V_main_arg1 m c)
  rw [e3, e1]
  -- the two arrays stay symbolic: what is left is the tail's own text, operation by operation
  generalize outArr m c = a
  generalize m ((c.tc : Thread nD τ).loc main_arg1) = t
  unfold tail softmaxRows
  rfl

end Cert.KernelIdeal.KTail

end
-- ==== Proof.KBody.lean ====
/-
  What the kernel body leaves in the output block, case by case, as payloads of what it loaded.
-/
import proofs.«425599_j89300960018699_3_alg».proof.Proof.Gen.KernelIdeal.Frame
import Idealize.ShloMosaic.Lib.ValueIdx
import Idealize.ShloMosaic.Lib.Pipeline.Value

noncomputable section

namespace Cert.KernelIdeal.Body

open Idealize.ShloMosaic Idealize.ShloMosaic.TcCoe Idealize.ShloMosaic.ValueIdx
open Cert.KernelIdeal Cert.KernelIdeal.Gen

variable {F : FTy → Type} [FloatOps F]

/-- The three zero offsets of the output block, as a constant function. -/
theorem hz3 : (![0, 0, 0] : Fin 3 → Nat) = fun _ => 0 := funext fun a => by fin_cases a <;> rfl
/-- The two zero offsets of the membership matrix, as a constant function. -/
theorem hz2 : (![0, 0] : Fin 2 → Nat) = fun _ => 0 := funext fun a => by fin_cases a <;> rfl

/-- Rows `8192 h … 8192 h + 8191` of a staged [1, 16384, 128] tile: what trip `h` of the inner loop loads. -/
def half (h : Fin 2) (x0 : Vec F S1x16384x128 .f32) : Vec F S1x8192x128 .f32 :=
  fun j => x0 (ix3 (0 : Fin 1) (⟨8192 * h.val + (j 1).val % 8192, by have := h.isLt; have := Nat.mod_lt (j 1).val (by decide : 0 < 8192); omega⟩ : Fin 16384) (j 2))

theorem half_apply (h : Fin 2) (x0 : Vec F S1x16384x128 .f32) (r : Fin 8192) (l : Fin 128) :
    half h x0 (ix3 (0 : Fin 1) r l)
      = x0 (ix3 (0 : Fin 1) (⟨8192 * h.val + r.val, by have := h.isLt; have := r.isLt; omega⟩ : Fin 16384) l) := by
  show x0 _ = x0 _
  congr 1
  funext a
  match a with
  | ⟨0, _⟩ => rfl
  | ⟨1, _⟩ =>
    exact Fin.ext (by show 8192 * h.val + r.val % 8192 = 8192 * h.val + r.val; rw [Nat.mod_eq_of_lt r.isLt])
  | ⟨2, _⟩ => rfl

/-- What the two-trip loop returns from the staged tile `x0` and the staged membership matrix `x1`: the loop's
    payload applied to the first half from zero, then to the second half from that. -/
def loopVal (x0 : Vec F S1x16384x128 .f32) (x1 : Vec F S128x16 .f32) : FVec F S1x16 .f32 :=
  k0_pay3 x1 (k0_pay3 x1 (k0_pay2 (F := F)) (half 0 x0)) (half 1 x0)

/-- The loop makes two trips. -/
theorem trips_two : k0_t1_loop.trips = 2 := by decide

/-- Trip `k` loads the rows `8192 k …` of the tile, all lanes: the `k`-th half. -/
theorem ld_half (k : Fin k0_t1_loop.trips) (hk : k.val < 2) (x0 : Vec F S1x16384x128 .f32) :
    View.ld x0 (Rect.unit (s := S1x16384x128) (k0_off1 k) S1x8192x128.size (k0_off1_inb k)) = half ⟨k.val, hk⟩ x0 := by
  funext j
  show x0 _ = x0 _
  congr 1
  funext a
  apply Fin.ext
  have ho := k0_off1_eq k
  have e0 : k0_off1 k 0 = 0 := congrFun ho 0
  have e1 : k0_off1 k 1 = 8192 * k.val := congrFun ho 1
  have e2 : k0_off1 k 2 = 0 := congrFun ho 2
  have h0 : (j 0).val < 1 := (j 0).isLt
  have h1 : (j 1).val < 8192 := (j 1).isLt
  match a with
  | ⟨0, _⟩ =>
    show k0_off1 k 0 + 1 * (j 0).val = 0
    omega
  | ⟨1, _⟩ =>
    show k0_off1 k 1 + 1 * (j 1).val = 8192 * k.val + (j 1).val % 8192
    rw [Nat.mod_eq_of_lt h1]; omega
  | ⟨2, _⟩ =>
    show k0_off1 k 2 + 1 * (j 2).val = (j 2).val
    omega

/-- One trip's result is the loop's payload of the carried value and the half it loads. -/
theorem trip_eq (𝒱 : Variants) (c : Dev nD) (bd : Option 𝒱.V) (i : grid0.Coords)
    (a2 : Memref sig .tc .vmem S1x16384x128 .f32) (h2 : a2.IsWhole)
    (a3 : Memref sig .tc .vmem S128x16 .f32) (h3 : a3.IsWhole) (a4 : Memref sig .tc .vmem S1x1x16 .f32) (h4 : a4.IsWhole)
    (v3 : Vec F S128x16 .f32) (x0 : Vec F S1x16384x128 .f32) (k : Fin k0_t1_loop.trips) (hk : k.val < 2)
    (acc : FVec F S1x16 .f32) :
    tripR_k0_t1 𝒱 c bd i a2 h2 a3 h3 a4 h4 v3 (h2.unread x0) k acc = k0_pay3 v3 acc (half ⟨k.val, hk⟩ x0) := by
  have e : (trip_k0_t1 𝒱 c bd i a2 h2 a3 h3 a4 h4 v3 (h2.unread x0) k).1 acc
      = k0_pay3 v3 acc (View.readAt (Elt F) a2.view
          (Rect.unit (s := S1x16384x128) (k0_off1 k) S1x8192x128.size (k0_off1_inb k)).toLoadRect (h2.unread x0)) := by
    unfold trip_k0_t1
    first | done | rfl
  refine e.trans ?_
  rw [View.readAt_eq_ld, h2.read_unread, ld_half k hk x0]

/-- The value the loop carries out: two trips from its initial value. -/
theorem loop_eq (𝒱 : Variants) (c : Dev nD) (bd : Option 𝒱.V) (i : grid0.Coords)
    (a2 : Memref sig .tc .vmem S1x16384x128 .f32) (h2 : a2.IsWhole)
    (a3 : Memref sig .tc .vmem S128x16 .f32) (h3 : a3.IsWhole) (a4 : Memref sig .tc .vmem S1x1x16 .f32) (h4 : a4.IsWhole)
    (x0 : Vec F S1x16384x128 .f32) (x1 : Vec F S128x16 .f32) (n : ℕ) (hn : n = 2) :
    st_k0_t1 𝒱 c bd i a2 h2 a3 h3 a4 h4 x1 (h2.unread x0) (k0_pay2 (F := F)) n = loopVal x0 x1 := by
  subst hn
  have t0 : 0 < k0_t1_loop.trips := by rw [trips_two]; decide
  have t1 : 1 < k0_t1_loop.trips := by rw [trips_two]; decide
  have e1 := st_k0_t1_succ 𝒱 c bd i a2 h2 a3 h3 a4 h4 x1 (h2.unread x0) (k0_pay2 (F := F)) ⟨1, t1⟩
  have e0 := st_k0_t1_succ 𝒱 c bd i a2 h2 a3 h3 a4 h4 x1 (h2.unread x0) (k0_pay2 (F := F)) ⟨0, t0⟩
  refine e1.trans ?_
  rw [trip_eq 𝒱 c bd i a2 h2 a3 h3 a4 h4 x1 x0 ⟨1, t1⟩ (show (1 : ℕ) < 2 by decide)]
  show k0_pay3 x1 (st_k0_t1 𝒱 c bd i a2 h2 a3 h3 a4 h4 x1 (h2.unread x0) (k0_pay2 (F := F)) (0 + 1)) _ = _
  rw [e0, trip_eq 𝒱 c bd i a2 h2 a3 h3 a4 h4 x1 x0 ⟨0, t0⟩ (show (0 : ℕ) < 2 by decide)]
  rfl

/-- First tile of a batch entry: the block is reset to zero, then the loop's value is added. -/
theorem out_A (c : Dev nD) (i : grid0.Coords) (a2 : Memref sig .tc .vmem S1x16384x128 .f32) (h2 : a2.IsWhole)
    (a3 : Memref sig .tc .vmem S128x16 .f32) (h3 : a3.IsWhole) (a4 : Memref sig .tc .vmem S1x1x16 .f32) (h4 : a4.IsWhole)
    (hc0 : cond0_0 i) (hc1 : ¬cond0_1 i) (x0 : Vec F S1x16384x128 .f32) (x1 : Vec F S128x16 .f32) :
    out0_A_2 c i a2 h2 a3 h3 a4 h4 hc0 hc1 x0 x1 = k0_pay4 (loopVal x0 x1) (k0_pay1 (F := F)) := by
  unfold out0_A_2
  rw [View.read_writes_eq_canon _ _ _ (cover0_A_2 c i a2 h2 a3 h3 a4 h4 hc0 hc1 x0 x1)]
  unfold kernelRun0_A
  dsimp only
  sl_unfold_words
  rw [View.canon_cons_unit_zero (S := S1x1x16) hz3, View.readCov_unit_zero (S := S1x1x16) _ hz3]
  simp only [View.readAt_eq_ld, h3.read_unread, View.ld_unit_zero (S := S128x16) hz2]
  rw [loop_eq Variants.none c none i a2 h2 a3 h3 a4 h4 x0 x1 _ (by decide)]

/-- A middle tile: the loop's value is added to what the block held. -/
theorem out_B (c : Dev nD) (i : grid0.Coords) (a2 : Memref sig .tc .vmem S1x16384x128 .f32) (h2 : a2.IsWhole)
    (a3 : Memref sig .tc .vmem S128x16 .f32) (h3 : a3.IsWhole) (a4 : Memref sig .tc .vmem S1x1x16 .f32) (h4 : a4.IsWhole)
    (hc0 : ¬cond0_0 i) (hc1 : ¬cond0_1 i) (x0 : Vec F S1x16384x128 .f32) (x1 : Vec F S128x16 .f32) (xo : Vec F S1x1x16 .f32) :
    out0_B_2 c i a2 h2 a3 h3 a4 h4 hc0 hc1 x0 x1 xo = k0_pay4 (loopVal x0 x1) xo := by
  unfold out0_B_2
  rw [View.read_writes_eq_canon _ _ _ (cover0_B_2 c i a2 h2 a3 h3 a4 h4 hc0 hc1 x0 x1 xo)]
  unfold kernelRun0_B
  dsimp only
  sl_unfold_words
  rw [View.canon_unit_zero (S := S1x1x16) hz3]
  simp only [View.readAt_eq_ld, h3.read_unread, h4.read_unread, View.ld_unit_zero (S := S128x16) hz2,
    View.ld_unit_zero (S := S1x1x16) hz3]
  rw [loop_eq Variants.none c none i a2 h2 a3 h3 a4 h4 x0 x1 _ (by decide)]

/-- Last tile of a batch entry: the loop's value is added, then the block is scaled. -/
theorem out_C (c : Dev nD) (i : grid0.Coords) (a2 : Memref sig .tc .vmem S1x16384x128 .f32) (h2 : a2.IsWhole)
    (a3 : Memref sig .tc .vmem S128x16 .f32) (h3 : a3.IsWhole) (a4 : Memref sig .tc .vmem S1x1x16 .f32) (h4 : a4.IsWhole)
    (hc0 : ¬cond0_0 i) (hc1 : cond0_1 i) (x0 : Vec F S1x16384x128 .f32) (x1 : Vec F S128x16 .f32) (xo : Vec F S1x1x16 .f32) :
    out0_C_2 c i a2 h2 a3 h3 a4 h4 hc0 hc1 x0 x1 xo = k0_pay5 (k0_pay4 (loopVal x0 x1) xo) := by
  unfold out0_C_2
  rw [View.read_writes_eq_canon _ _ _ (cover0_C_2 c i a2 h2 a3 h3 a4 h4 hc0 hc1 x0 x1 xo)]
  unfold kernelRun0_C
  dsimp only
  sl_unfold_words
  rw [View.canon_cons_unit_zero (S := S1x1x16) hz3, View.readCov_unit_zero (S := S1x1x16) _ hz3]
  simp only [View.readAt_eq_ld, h3.read_unread, h4.read_unread, View.ld_unit_zero (S := S128x16) hz2,
    View.ld_unit_zero (S := S1x1x16) hz3]
  rw [loop_eq Variants.none c none i a2 h2 a3 h3 a4 h4 x0 x1 _ (by decide)]

end Cert.KernelIdeal.Body

end
-- ==== Proof.Spec.lean ====
/-
  The mathematics of the grouped-softmax mean, stated once over the extended reals, with no program in sight.

  A row `x` of 128 logits is turned into 16 group weights in two ways.
  * `kRow`: exponentiate, sum each group (a product with a 0/1 membership matrix `G`), and scale by the reciprocal of
    the sum of the 16 group sums — a softmax with no shift by the row's maximum, normalised AFTER grouping.
  * `rRow`: the shifted softmax `exp (x c - M) / ∑ exp (x c' - M)` (`M` the row's maximum), grouped afterwards.
  For a finite row these agree: `exp (x - M) = exp x / exp M`, the factor `exp M` cancels, and because every class lies in
  exactly one group the sum of the group sums is the sum over all classes.

  `kAvg` averages `kRow` over the 65536 rows of a batch entry as 4 tiles × 2 halves × 8192 rows, times 2⁻¹⁶;
  `rAvg` sums `rRow` over the 65536 rows and divides by 65536.
-/
import Idealize.ShloMosaic.PureOps.Ideal
import Idealize.ShloMosaic.Lib.ValueIdx

noncomputable section

open Idealize.ShloMosaic Idealize.ShloMosaic.ValueIdx
open scoped BigOperators

namespace Cert.GroupedMean

/-- The input tensor's shape, the averaged tensor's, and the membership matrix's. -/
abbrev SX : Shape := ⟨3, ![8, 65536, 128]⟩
abbrev SA : Shape := ⟨2, ![8, 16]⟩
abbrev SG : Shape := ⟨2, ![128, 16]⟩

/-- Class `c` belongs to group `c / 8`: sixteen contiguous groups of eight classes. -/
def oneHot (c : Fin 128) (g : Fin 16) : EReal := if c.val / 8 = g.val then 1 else 0

/-- Row `n` of batch entry `b`. -/
def row (X : SX.Idx → EReal) (b : Fin 8) (n : Fin 65536) : Fin 128 → EReal := fun c => X (ix3 b n c)

/-- Grouped exponentials normalised by the reciprocal of their total. -/
def kRow (G : Fin 128 → Fin 16 → EReal) (x : Fin 128 → EReal) (g : Fin 16) : EReal :=
  (∑ c, Ideal.exp (x c) * G c g) * Ideal.div 1 (∑ g', ∑ c, Ideal.exp (x c) * G c g')

/-- Row `r` of half `h` of tile `n`. -/
def rowIx (n : Fin 4) (h : Fin 2) (r : Fin 8192) : Fin 65536 :=
  ⟨16384 * n.val + 8192 * h.val + r.val, by have := n.isLt; have := h.isLt; have := r.isLt; omega⟩

/-- The tiled mean: every row's weights summed tile by tile and half by half, times 2⁻¹⁶. -/
def kAvg (G : Fin 128 → Fin 16 → EReal) (X : SX.Idx → EReal) (b : Fin 8) (g : Fin 16) : EReal :=
  (∑ n : Fin 4, ∑ h : Fin 2, ∑ r : Fin 8192, kRow G (row X b (rowIx n h r)) g) * Ideal.ofBits .f32 0x37800000#32

/-- A row's maximum, as a fold from `-∞` joined once more with `-∞`. -/
def rowMax (x : Fin 128 → EReal) : EReal := max ⊥ ((Finset.univ : Finset (Fin 128)).fold max ⊥ x)

/-- The shifted softmax, grouped. -/
def rRow (L : Fin 128 → Fin 16 → EReal) (x : Fin 128 → EReal) (g : Fin 16) : EReal :=
  ∑ c, Ideal.div (Ideal.exp (x c - rowMax x)) (∑ c', Ideal.exp (x c' - rowMax x)) * L c g

/-- The plain mean over the 65536 rows. -/
def rAvg (L : Fin 128 → Fin 16 → EReal) (X : SX.Idx → EReal) (b : Fin 8) (g : Fin 16) : EReal :=
  Ideal.div (∑ n : Fin 65536, rRow L (row X b n) g) (Ideal.ofBits .f32 0x47800000#32)

/-- The tiled mean as an [8, 16] array. -/
def kAvgArr (X : SX.Idx → EReal) : SA.Idx → EReal := fun j => kAvg oneHot X (j 0) (j 1)

end Cert.GroupedMean

end
-- ==== Proof.KPayload.lean ====
/-
  The kernel body's payloads read at an index, over the extended reals.
-/
import proofs.«425599_j89300960018699_3_alg».proof.Proof.Gen.KernelIdeal.Skeleton
import proofs.«425599_j89300960018699_3_alg».proof.Proof.Spec
import Idealize.ShloMosaic.PureOps.Ideal.Laws
import Idealize.ShloMosaic.Lib.ValueIdx
import Idealize.ShloMosaic.Lib.IdealHost
import Idealize.ShloMosaic.Lib.Pipeline.Value

noncomputable section

namespace Cert.KernelIdeal.Payload

open Idealize.ShloMosaic Idealize.ShloMosaic.ValueIdx
open Cert.KernelIdeal Cert.KernelIdeal.Gen Cert.GroupedMean
open scoped BigOperators

/-! ## The small payloads -/

/-- The reset block is zero. -/
theorem pay1_apply (j : S1x1x16.Idx) : k0_pay1 (F := Ideal) j = 0 := by
  unfold k0_pay1
  exact Ideal.ofBits_zero_f32

/-- The loop starts from zero. -/
theorem pay2_apply (j : S1x16.Idx) : k0_pay2 (F := Ideal) j = 0 := by
  unfold k0_pay2
  exact Ideal.ofBits_zero_f32

/-! ## Layout operations of the body at explicit coordinates -/

/-- The [1, 8192, 128] block viewed as [8192, 128]: entry (r, c) is entry (0, r, c). -/
theorem castBlk_apply {α : Type} (v : S1x8192x128.Idx → α) (r : Fin 8192) (c : Fin 128) :
    shapeCast S8192x128 v shapeCasts_S1x8192x128_S8192x128 (ix2 r c) = v (ix3 (0 : Fin 1) r c) := by
  refine (shapeCast_dropUnit_apply ![8192, 128] v shapeCasts_S1x8192x128_S8192x128 (ix2 r c)).trans ?_
  refine congrArg v ?_
  funext a
  match a with
  | ⟨0, _⟩ => rfl
  | ⟨1, _⟩ => rfl
  | ⟨2, _⟩ => rfl

/-- A vector of 8192 entries viewed as a column [8192, 1]: entry (r, 0) is entry r. -/
theorem castCol_apply {α : Type} (v : S8192.Idx → α) (r : Fin 8192) :
    shapeCast S8192x1 v shapeCasts_S8192_S8192x1 (ix2 r (0 : Fin 1)) = v (ix1 r) := by
  refine shapeCast_apply v shapeCasts_S8192_S8192x1 (ix2 r (0 : Fin 1)) (ix1 r) ?_
  rw [Shape.rowMajor_val_one, Shape.rowMajor_val_two]
  show r.val = r.val * 1 + 0
  omega

/-- A vector of 16 entries viewed as a row [1, 16]: entry (0, g) is entry g. -/
theorem castRow_apply {α : Type} (v : S16.Idx → α) (g : Fin 16) :
    shapeCast S1x16 v shapeCasts_S16_S1x16 (ix2 (0 : Fin 1) g) = v (ix1 g) := by
  refine (shapeCast_addUnit_apply ![16] v shapeCasts_S16_S1x16 (ix2 (0 : Fin 1) g)).trans ?_
  refine congrArg v ?_
  funext a
  match a with
  | ⟨0, _⟩ => rfl

/-- A row [1, 16] viewed as [1, 1, 16]: entry (0, 0, g) is entry (0, g). -/
theorem castRow3_apply {α : Type} (v : S1x16.Idx → α) (g : Fin 16) :
    shapeCast S1x1x16 v shapeCasts_S1x16_S1x1x16 (ix3 (0 : Fin 1) (0 : Fin 1) g) = v (ix2 (0 : Fin 1) g) := by
  refine (shapeCast_addUnit_apply ![1, 16] v shapeCasts_S1x16_S1x1x16 (ix3 (0 : Fin 1) (0 : Fin 1) g)).trans ?_
  refine congrArg v ?_
  funext a
  match a with
  | ⟨0, _⟩ => rfl
  | ⟨1, _⟩ => rfl

/-- A column [8192, 1] broadcast along the 16 groups: entry (r, g) is entry (r, 0). -/
theorem bcastCol_apply {α : Type} (v : S8192x1.Idx → α) (r : Fin 8192) (g : Fin 16) :
    broadcastTo S8192x16 v broadcasts_S8192x1_S8192x16 (ix2 r g) = v (ix2 r (0 : Fin 1)) := by
  refine broadcastTo_apply v broadcasts_S8192x1_S8192x16 (ix2 r g) (ix2 r (0 : Fin 1)) fun a => ?_
  match a with
  | ⟨0, _⟩ => rfl
  | ⟨1, _⟩ => rfl

/-- The exponential is taken entry by entry. -/
theorem exp_apply {s : Shape} {φ : FTy} (a : FVec Ideal s φ) (i : s.Idx) : exp a i = Ideal.exp (a i) := rfl

/-- The update of the block: what it held plus the loop's value. -/
theorem pay4_apply (v8 : FVec Ideal S1x16 .f32) (v9 : Vec Ideal S1x1x16 .f32) (g : Fin 16) :
    k0_pay4 v8 v9 (ix3 (0 : Fin 1) (0 : Fin 1) g) = v9 (ix3 (0 : Fin 1) (0 : Fin 1) g) + v8 (ix2 (0 : Fin 1) g) := by
  unfold k0_pay4
  rw [addf_apply, shapeCast_self, castRow3_apply]

/-- The final scaling by the literal 2⁻¹⁶. -/
theorem pay5_apply (v : Vec Ideal S1x1x16 .f32) (g : Fin 16) :
    k0_pay5 v (ix3 (0 : Fin 1) (0 : Fin 1) g) = v (ix3 (0 : Fin 1) (0 : Fin 1) g) * Ideal.ofBits .f32 0x37800000#32 := by
  unfold k0_pay5
  rw [mulf_apply, shapeCast_self]
  rfl

/-! ## The product with the membership matrix at an index -/

/-- Row coordinate of the left operand: the result's row. -/
theorem lhs_mm_0 (i : S8192x16.Idx) (q : dot_S8192x128_S128x16_S8192x16_1_0_0_1_n_n.contr.Idx) :
    (dot_S8192x128_S128x16_S8192x16_1_0_0_1_n_n.lhsIdx i q 0).val = (i 0).val := by
  unfold DotDims.lhsIdx
  rw [dif_neg (show ¬(0 : Fin S8192x128.rank) ∈ dot_S8192x128_S128x16_S8192x16_1_0_0_1_n_n.lhsBatch by decide), dif_pos (show (0 : Fin S8192x128.rank) ∈ dot_S8192x128_S128x16_S8192x16_1_0_0_1_n_n.lhsNonContracting by decide)]
  rfl

/-- Column coordinate of the left operand: the contracted class. -/
theorem lhs_mm_1 (i : S8192x16.Idx) (q : dot_S8192x128_S128x16_S8192x16_1_0_0_1_n_n.contr.Idx) :
    (dot_S8192x128_S128x16_S8192x16_1_0_0_1_n_n.lhsIdx i q 1).val = (q ⟨0, by decide⟩).val :=
  dot_S8192x128_S128x16_S8192x16_1_0_0_1_n_n.lhsIdx_val_of_single rfl i q

/-- Row coordinate of the right operand: the contracted class. -/
theorem rhs_mm_0 (i : S8192x16.Idx) (q : dot_S8192x128_S128x16_S8192x16_1_0_0_1_n_n.contr.Idx) :
    (dot_S8192x128_S128x16_S8192x16_1_0_0_1_n_n.rhsIdx i q 0).val = (q ⟨0, by decide⟩).val :=
  dot_S8192x128_S128x16_S8192x16_1_0_0_1_n_n.rhsIdx_val_of_single rfl i q

/-- Column coordinate of the right operand: the result's group. -/
theorem rhs_mm_1 (i : S8192x16.Idx) (q : dot_S8192x128_S128x16_S8192x16_1_0_0_1_n_n.contr.Idx) :
    (dot_S8192x128_S128x16_S8192x16_1_0_0_1_n_n.rhsIdx i q 1).val = (i 1).val := by
  unfold DotDims.rhsIdx
  rw [dif_neg (show ¬(1 : Fin S128x16.rank) ∈ dot_S8192x128_S128x16_S8192x16_1_0_0_1_n_n.rhsBatch by decide), dif_pos (show (1 : Fin S128x16.rank) ∈ dot_S8192x128_S128x16_S8192x16_1_0_0_1_n_n.rhsNonContracting by decide)]
  rfl

/-- The [8192, 128] by [128, 16] product into a zero accumulator, at (r, g): the sum over the 128 classes. -/
theorem mm_apply {φ₁ φ₂ : FTy} (E : FVec Ideal S8192x128 φ₁) (W : FVec Ideal S128x16 φ₂) (r : Fin 8192) (g : Fin 16) :
    matmul dot_S8192x128_S128x16_S8192x16_1_0_0_1_n_n none E W (constant (F := Ideal) S8192x16 .f32 0x00000000#32) (ix2 r g)
      = ∑ c : Fin 128, E (ix2 r c) * W (ix2 c g) := by
  simp only [matmul]
  rw [Ideal.matmul_constant_zero_apply, ← Equiv.sum_comp (contrEquiv1 dot_S8192x128_S128x16_S8192x16_1_0_0_1_n_n 128 rfl rfl).symm]
  refine Finset.sum_congr rfl fun k _ => ?_
  have hk := contrEquiv1_symm_val dot_S8192x128_S128x16_S8192x16_1_0_0_1_n_n 128 rfl rfl k
  have el : dot_S8192x128_S128x16_S8192x16_1_0_0_1_n_n.lhsIdx (ix2 r g) ((contrEquiv1 dot_S8192x128_S128x16_S8192x16_1_0_0_1_n_n 128 rfl rfl).symm k) = ix2 r k := funext fun a => Fin.ext (by
    match a with
    | ⟨0, _⟩ => exact lhs_mm_0 _ _
    | ⟨1, _⟩ => exact (lhs_mm_1 _ _).trans hk)
  have er : dot_S8192x128_S128x16_S8192x16_1_0_0_1_n_n.rhsIdx (ix2 r g) ((contrEquiv1 dot_S8192x128_S128x16_S8192x16_1_0_0_1_n_n 128 rfl rfl).symm k) = ix2 k g := funext fun a => Fin.ext (by
    match a with
    | ⟨0, _⟩ => exact (rhs_mm_0 _ _).trans hk
    | ⟨1, _⟩ => exact rhs_mm_1 _ _)
  rw [el, er]

/-! ## The two lane sums at an index -/

/-- The sum over the 16 groups of row r. -/
theorem laneSum_apply (M : FVec Ideal S8192x16 .f32) (r : Fin 8192) :
    multiReduction (F := Ideal) .add [1] S8192 M 0x00000000#32 reduces_S8192x16_S8192 (.inl rfl) rfl (ix1 r)
      = ∑ g' : Fin 16, M (ix2 r g') := by
  refine (Ideal.multiReduction_add_single M 0x00000000#32 reduces_S8192x16_S8192 (.inl rfl) rfl (ix1 r)).trans ?_
  show ∑ g' : Fin 16, M (reduces_S8192x16_S8192.lift (ix1 r) g') = _
  refine Finset.sum_congr rfl fun g' _ => congrArg M ?_
  funext a
  refine Fin.ext ?_
  match a with
  | ⟨0, _⟩ => rfl
  | ⟨1, _⟩ => rfl

/-- The sum over the 8192 rows of group g. -/
theorem rowSum_apply (M : FVec Ideal S8192x16 .f32) (g : Fin 16) :
    multiReduction (F := Ideal) .add [0] S16 M 0x00000000#32 reduces_S8192x16_S16 (.inl rfl) rfl (ix1 g)
      = ∑ r : Fin 8192, M (ix2 r g) := by
  refine (Ideal.multiReduction_add_single M 0x00000000#32 reduces_S8192x16_S16 (.inl rfl) rfl (ix1 g)).trans ?_
  show ∑ r : Fin 8192, M (reduces_S8192x16_S16.lift (ix1 g) r) = _
  refine Finset.sum_congr rfl fun r _ => congrArg M ?_
  funext a
  refine Fin.ext ?_
  match a with
  | ⟨0, _⟩ => rfl
  | ⟨1, _⟩ => rfl

/-! ## One trip of the loop -/

/-- The literal 1.0 is the extended real one. -/
theorem one_f32 : (Scalar.ofBits (F := Ideal) .f32 0x3F800000#32 : EReal) = 1 := Ideal.ofBits_one_f32

/-- One trip of the loop: to the carried value it adds, group by group, the sum over the 8192 rows of the loaded half of
    each row's grouped exponentials normalised by the reciprocal of their total. -/
theorem pay3_apply (G : Vec Ideal S128x16 .f32) (acc : FVec Ideal S1x16 .f32) (blk : Vec Ideal S1x8192x128 .f32) (g : Fin 16) :
    k0_pay3 G acc blk (ix2 (0 : Fin 1) g)
      = acc (ix2 (0 : Fin 1) g)
        + ∑ r : Fin 8192, kRow (fun c g' => G (ix2 c g')) (fun c => blk (ix3 (0 : Fin 1) r c)) g := by
  unfold k0_pay3
  rw [addf_apply, castRow_apply, rowSum_apply]
  refine congrArg (acc (ix2 (0 : Fin 1) g) + ·) (Finset.sum_congr rfl fun r _ => ?_)
  rw [mulf_apply, bcastCol_apply, divf_apply, broadcast_apply, castCol_apply, laneSum_apply, one_f32]
  unfold kRow
  simp only [mm_apply, truncf_apply, exp_apply, castBlk_apply, shapeCast_self]

end Cert.KernelIdeal.Payload

end
-- ==== Proof.KPrelude.lean ====
/-
  The membership matrix the kernel's program computes on the host before the region: class `c` against group `g`
  is 1 when `c / 8 = g` and 0 otherwise.

  The program's prelude is three stretches of integer operations: the class numbers 0 … 127 and the word 8; their floor
  division (the quotient rounded toward zero, corrected by one where the signs differ and the remainder is not zero);
  the comparison of the quotients, laid along the rows of a 128 × 16 rectangle, with the column numbers, read as a float.
  Each stretch is read off as a term over what the stretch before left; the term at an entry is a function of two words;
  the arithmetic is decided over the 128 × 16 entries.
-/
import proofs.«425599_j89300960018699_3_alg».proof.Proof.Gen.KernelIdeal.Frame
import proofs.«425599_j89300960018699_3_alg».proof.Proof.Spec
import Idealize.ShloMosaic.Lib.StableHlo.Run
import Idealize.ShloMosaic.Lib.StableHlo.Predicate

noncomputable section

namespace Cert.KernelIdeal.Prelude

open Idealize.ShloMosaic Idealize.ShloMosaic.TcCoe Idealize.ShloMosaic.ValueIdx
open Cert.KernelIdeal Cert.KernelIdeal.Gen Cert.GroupedMean

variable (m : (ℓ : Loc nD τ sig) → Buf (Elt Ideal) ℓ)

/-! ## The stretches, one at a time -/

/-- The contents before the region: the three stretches run in turn from the launch contents. -/
theorem V0_split (c : Dev nD) : V0 (F := Ideal) m c
    = StableHlo.after hostOps0_2 (StableHlo.after hostOps0_1 (StableHlo.after hostOps0 (fun b => m (c, b)))) := by
  show StableHlo.after (List.flatten [hostOps0, hostOps0_1, hostOps0_2]) _ = _
  rw [List.flatten_cons, List.flatten_cons, List.flatten_cons, List.flatten_nil, List.append_nil,
    StableHlo.after_append, StableHlo.after_append]

/-- The floor division of a vector of words by a scalar word, as the program spells it: the quotient rounded toward
    zero, less one where the signs differ and the remainder is not zero. -/
def fdTerm (x : IVec S128 32) (k : IVec S_ 32) : IVec S128 32 :=
  select
    (andi (cmpi .ne (signi x) (broadcastInDim S128 ![] bcast_S_S128 (signi k)))
      (cmpi .ne (Host.remsi x (broadcastInDim S128 ![] bcast_S_S128 k))
        (broadcastInDim S128 ![] bcast_S_S128 (constantI S_ 32 0#32))))
    (subi (Host.divsi x (broadcastInDim S128 ![] bcast_S_S128 k)) (broadcastInDim S128 ![] bcast_S_S128 (constantI S_ 32 1#32)))
    (Host.divsi x (broadcastInDim S128 ![] bcast_S_S128 k))

/-- The comparison of a vector of words, laid along the rows, with the column numbers, as a float. -/
def ohTerm (y : IVec S128 32) : S128x16.Idx → Ideal .f32 :=
  uitofp (F := Ideal) .f32
    (cmpi .eq
      (broadcastInDim S128x16 ![0, 1] bcast_S128x1_S128x16_0_1 (broadcastInDim S128x1 ![0] bcast_S128_S128x1_0 y))
      (broadcastInDim S128x16 ![0, 1] bcast_S1x16_S128x16_0_1 (iotaInDim S1x16 32 1)))

section Stages
variable (W : Valuation τ sig (Elt Ideal))

/-- The first stretch leaves the class numbers 0 … 127 and the word 8. -/
theorem stage0_v0 : (StableHlo.after (hostOps0 (F := Ideal)) W (Proc.devRef .tc main_v0) : IVec S128 32) = iotaInDim S128 32 0 := by
  dsimp only [hostOps0]
  after_results

theorem stage0_c : (StableHlo.after (hostOps0 (F := Ideal)) W (Proc.devRef .tc main_c) : IVec S_ 32) = constantI S_ 32 8#32 := by
  dsimp only [hostOps0]
  after_results

/-- The second stretch leaves the floor division of the one by the other. -/
theorem stage1 : (StableHlo.after (hostOps0_1 (F := Ideal)) W (Proc.devRef .tc main_v1) : IVec S128 32)
    = fdTerm (W (Proc.devRef .tc main_v0)) (W (Proc.devRef .tc main_c)) := by
  dsimp only [hostOps0_1]
  after_results
  rfl

/-- The third stretch leaves the comparison of that with the group numbers. -/
theorem stage2 : (StableHlo.after (hostOps0_2 (F := Ideal)) W (Proc.devRef .tc main_v2) : S128x16.Idx → Ideal .f32)
    = ohTerm (W (Proc.devRef .tc main_v1)) := by
  dsimp only [hostOps0_2]
  after_results
  rfl

end Stages

/-- The matrix as the operations' term. -/
theorem gmat_e (c : Dev nD) :
    (V (F := Ideal) m c main_v2 : S128x16.Idx → Ideal .f32) = ohTerm (fdTerm (iotaInDim S128 32 0) (constantI S_ 32 8#32)) := by
  show V0 (F := Ideal) m c (Proc.devRef .tc main_v2) = _
  rw [V0_split, stage2, stage1, stage0_v0, stage0_c]

/-! ## The term at an entry -/

/-- The sign of a word: 0, 1 or -1. -/
def sgnW (a : BitVec 32) : BitVec 32 := if a = 0 then 0 else if a.msb then -1 else 1

/-- Floor division of one word by another, as the program spells it. -/
def fdW (a b : BitVec 32) : BitVec 32 :=
  Scalar.select (IntOp.andi (IntOp.cmpi .ne (sgnW a) (sgnW b)) (IntOp.cmpi .ne (IntOp.remsi .host a b) 0#32))
    (IntOp.subi (IntOp.divsi .host a b) 1#32) (IntOp.divsi .host a b)

theorem fdTerm_apply (x : IVec S128 32) (k : IVec S_ 32) (i : S128.Idx) :
    fdTerm x k i = fdW (x i) (k (Shape.Idx.first h_S_)) := by
  have hb : ∀ v : IVec S_ 32, broadcastInDim S128 ![] bcast_S_S128 v i = v (Shape.Idx.first h_S_) :=
    fun v => StableHlo.Predicate.bcast_scalar bcast_S_S128 h_S_ v i
  show Scalar.select
      (IntOp.andi (IntOp.cmpi .ne (signi x i) (broadcastInDim S128 ![] bcast_S_S128 (signi k) i))
        (IntOp.cmpi .ne (IntOp.remsi .host (x i) (broadcastInDim S128 ![] bcast_S_S128 k i))
          (broadcastInDim S128 ![] bcast_S_S128 (constantI S_ 32 0#32) i)))
      (IntOp.subi (IntOp.divsi .host (x i) (broadcastInDim S128 ![] bcast_S_S128 k i))
        (broadcastInDim S128 ![] bcast_S_S128 (constantI S_ 32 1#32) i))
      (IntOp.divsi .host (x i) (broadcastInDim S128 ![] bcast_S_S128 k i)) = _
  rw [hb (signi k), hb k, hb (constantI S_ 32 0#32), hb (constantI S_ 32 1#32)]
  rfl

theorem ohTerm_apply (y : IVec S128 32) (cl : Fin 128) (g : Fin 16) :
    ohTerm y (ix2 cl g)
      = FloatOps.uitofp (F := Ideal) .f32 (IntOp.cmpi .eq (y (Shape.Idx.ofFin cl)) (BitVec.ofNat 32 g.val)) := by
  have hij : (ix2 cl g : S128x16.Idx) = StableHlo.Predicate.ij cl g := by
    funext d; match d with | ⟨0, _⟩ => rfl | ⟨1, _⟩ => rfl
  have h1 : broadcastInDim S128x16 ![0, 1] bcast_S128x1_S128x16_0_1 (broadcastInDim S128x1 ![0] bcast_S128_S128x1_0 y) (ix2 cl g)
      = y (Shape.Idx.ofFin cl) := by
    rw [hij]; exact StableHlo.Predicate.bcast_rows (n := 128) (m := 16) bcast_S128_S128x1_0 bcast_S128x1_S128x16_0_1 y cl g
  have h2 : broadcastInDim S128x16 ![0, 1] bcast_S1x16_S128x16_0_1 (iotaInDim S1x16 32 1) (ix2 cl g) = BitVec.ofNat 32 g.val := by
    rw [hij]; exact StableHlo.Predicate.bcast_of_row (n := 128) (m := 16) bcast_S1x16_S128x16_0_1 (iotaInDim S1x16 32 1) cl g
  show FloatOps.uitofp (F := Ideal) .f32 (IntOp.cmpi .eq
      (broadcastInDim S128x16 ![0, 1] bcast_S128x1_S128x16_0_1 (broadcastInDim S128x1 ![0] bcast_S128_S128x1_0 y) (ix2 cl g))
      (broadcastInDim S128x16 ![0, 1] bcast_S1x16_S128x16_0_1 (iotaInDim S1x16 32 1) (ix2 cl g))) = _
  rw [h1, h2]

/-! ## The arithmetic, over the finitely many entries -/

/-- Class `cl` floor-divided by 8 is group `g` exactly when `cl / 8 = g`: decided over the 128 × 16 entries. -/
theorem onehot_bits : ∀ cl : Fin 128, ∀ g : Fin 16,
    IntOp.cmpi .eq (fdW (BitVec.ofNat 32 cl.val) 8#32) (BitVec.ofNat 32 g.val) = BitVec.ofBool (decide (cl.val / 8 = g.val)) := by
  decide +kernel

/-- A bit as a float is 0 or 1. -/
theorem uitofp_bit (b : Bool) : (FloatOps.uitofp (F := Ideal) .f32 (BitVec.ofBool b) : Ideal .f32) = if b then 1 else 0 := by
  cases b
  · show (((0 : ℕ) : ℝ) : EReal) = 0
    simp
  · show (((1 : ℕ) : ℝ) : EReal) = 1
    simp

/-- The matrix the region finds in its second operand: an iota over the 128 classes floor-divided by 8, compared for
    equality with an iota over the 16 groups, converted to a float. -/
theorem gmat_apply (c : Dev nD) (cl : Fin 128) (g : Fin 16) :
    (V (F := Ideal) m c main_v2 : S128x16.Idx → Ideal .f32) (ix2 cl g) = oneHot cl g := by
  refine (congrFun (gmat_e m c) (ix2 cl g)).trans ?_
  rw [ohTerm_apply, fdTerm_apply]
  show FloatOps.uitofp (F := Ideal) .f32 (IntOp.cmpi .eq (fdW (BitVec.ofNat 32 cl.val) 8#32) (BitVec.ofNat 32 g.val)) = _
  rw [onehot_bits cl g, uitofp_bit]
  show _ = (if cl.val / 8 = g.val then (1 : EReal) else 0)
  by_cases h : cl.val / 8 = g.val
  · rw [if_pos h, if_pos (decide_eq_true h)]
  · rw [if_neg h, if_neg (by simpa using h)]

end Cert.KernelIdeal.Prelude

end
-- ==== Proof.KValue.lean ====
/-
  The region's result array: entry (b, 0, g) is the tiled mean of batch entry b's rows for group g.

  The grid has 32 points: point t works on tile t % 4 (16384 rows) of batch entry t / 4, and the output block of a batch
  entry stays in place over its four points. At a point the inner loop returns, group by group, the sum over both halves'
  8192 rows of each row's grouped exponentials normalised by the reciprocal of their total (the membership matrix the
  region finds in its second operand is the 0/1 matrix of sixteen groups of eight classes). The first point of a batch
  entry stores zero plus that sum, the second and third add theirs, the fourth adds its own and scales by 2⁻¹⁶: after it
  the block holds the tiled mean. That block is the one written back (after the points 3, 7, …, 31), to row b of the
  result array, and those eight blocks cover the array.
-/
import proofs.«425599_j89300960018699_3_alg».proof.Proof.KBody
import proofs.«425599_j89300960018699_3_alg».proof.Proof.KPayload
import proofs.«425599_j89300960018699_3_alg».proof.Proof.KPrelude
import Idealize.ShloMosaic.Lib.Pipeline.Value

noncomputable section

namespace Cert.KernelIdeal.KValue

open Idealize.ShloMosaic Idealize.ShloMosaic.TcCoe Idealize.ShloMosaic.ValueIdx
open Cert.KernelIdeal Cert.KernelIdeal.Gen Cert.GroupedMean
open scoped BigOperators

variable (m : (ℓ : Loc nD τ sig) → Buf (Elt Ideal) ℓ)

/-- The index maps over the grid: the logits' block of point `t` is block (t / 4, t % 4, 0), the membership matrix's is
    (0, 0), the output's is (t / 4, 0, 0). -/
theorem idx0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, win0_0.index t (0 : Fin 3) = t.val / 4 ∧ win0_0.index t (1 : Fin 3) = t.val % 4 ∧ win0_0.index t (2 : Fin 3) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 3) = t.val / 4 ∧ win0_2.index t (1 : Fin 3) = 0 ∧ win0_2.index t (2 : Fin 3) = 0 :=
  (by decide +kernel : ∀ t : Fin grid0.N, win0_2.index t (0 : Fin 3) = t.val / 4 ∧ win0_2.index t (1 : Fin 3) = 0 ∧ win0_2.index t (2 : Fin 3) = 0)

/-- Row `R` of the logits' block at point `t` is row `16384 (t % 4) + R` of batch entry `t / 4`. -/
theorem iblk0_apply (c : Dev nD) (t : Fin cfg0.N) (R : Fin 16384) (l : Fin 128) (b : Fin 8) (N : Fin 65536)
    (hb : b.val = t.val / 4) (hN : N.val = 16384 * (t.val % 4) + R.val) :
    (iblk m c 0 t : S1x16384x128.Idx → Ideal .f32) (ix3 (0 : Fin 1) R l)
      = (m ((c.tc : Thread nD τ).loc main_arg0) : S8x65536x128.Idx → Ideal .f32) (ix3 b N l) := by
  unfold iblk
  rw [View.read_apply]
  show V m c main_arg0 _ = _
  rw [V_main_arg0]
  refine congrArg _ ?_
  funext a
  apply Fin.ext
  match a with
  | ⟨0, _⟩ => show win0_0.index t 0 * 1 + 1 * (0 : Fin 1).val = b.val; rw [(idx0 t).1]; simp only [Fin.val_zero]; omega
  | ⟨1, _⟩ => show win0_0.index t 1 * 16384 + 1 * R.val = N.val; rw [(idx0 t).2.1]; omega
  | ⟨2, _⟩ => show win0_0.index t 2 * 128 + 1 * l.val = l.val; rw [(idx0 t).2.2]; omega

/-- The membership matrix's block is the whole matrix: class against group, 1 inside the group and 0 outside. -/
theorem iblk1_apply (c : Dev nD) (t : Fin cfg0.N) (cl : Fin 128) (g : Fin 16) :
    (iblk m c 1 t : S128x16.Idx → Ideal .f32) (ix2 cl g) = oneHot cl g := by
  unfold iblk
  rw [View.read_apply]
  show (V m c main_v2 : S128x16.Idx → Ideal .f32) _ = _
  rw [← Prelude.gmat_apply m c cl g]
  refine congrArg _ ?_
  funext a
  apply Fin.ext
  match a with
  | ⟨0, _⟩ => show win0_1.index t 0 * 128 + 1 * cl.val = cl.val; rw [(idx1 t).1]; omega
  | ⟨1, _⟩ => show win0_1.index t 1 * 16 + 1 * g.val = g.val; rw [(idx1 t).2]; omega

/-- The point's input blocks at their literal types. -/
abbrev xblk (c : Dev nD) (t : Fin cfg0.N) : Vec Ideal S1x16384x128 .f32 := iblk m c 0 t
abbrev gblk (c : Dev nD) (t : Fin cfg0.N) : Vec Ideal S128x16 .f32 := iblk m c 1 t

/-- The logits as the program was launched with them. -/
abbrev X (c : Dev nD) : SX.Idx → EReal := m ((c.tc : Thread nD τ).loc main_arg0)

/-- Tile `n` of batch entry `b`: both halves' rows summed. -/
def tileSum (c : Dev nD) (b : Fin 8) (n : Fin 4) (g : Fin 16) : EReal :=
  ∑ h : Fin 2, ∑ r : Fin 8192, kRow oneHot (row (X m c) b (rowIx n h r)) g

/-- What the inner loop returns at point `t` = tile `t % 4` of batch entry `t / 4`. -/
theorem loopVal_apply (c : Dev nD) (t : Fin cfg0.N) (b : Fin 8) (n : Fin 4) (hb : b.val = t.val / 4) (hn : n.val = t.val % 4)
    (g : Fin 16) :
    Body.loopVal (xblk m c t) (gblk m c t) (ix2 (0 : Fin 1) g) = tileSum m c b n g := by
  unfold Body.loopVal
  rw [Payload.pay3_apply (gblk m c t) _ (Body.half 1 (xblk m c t)) g,
    Payload.pay3_apply (gblk m c t) _ (Body.half 0 (xblk m c t)) g, Payload.pay2_apply, zero_add]
  unfold tileSum
  rw [Fin.sum_univ_two]
  have hG : (fun (cl : Fin 128) (g' : Fin 16) => gblk m c t (ix2 cl g')) = oneHot :=
    funext fun cl => funext fun g' => iblk1_apply m c t cl g'
  have hrow : ∀ (h : Fin 2) (r : Fin 8192),
      (fun cl : Fin 128 => Body.half h (xblk m c t) (ix3 (0 : Fin 1) r cl)) = row (X m c) b (rowIx n h r) := by
    intro h r
    funext cl
    rw [Body.half_apply]
    exact iblk0_apply m c t _ cl b (rowIx n h r) hb (by
      show 16384 * n.val + 8192 * h.val + r.val = 16384 * (t.val % 4) + (8192 * h.val + r.val)
      rw [hn]; omega)
  rw [hG]
  simp only [hrow]

/-- The block's contents after a point depend on the point's number only. -/
theorem outs_congr (c : Dev nD) {n n' : ℕ} (e : n = n') (h : n < cfg0.N) (h' : n' < cfg0.N) :
    outsAt0 m c n h = outsAt0 m c n' h' := by subst e; rfl

/-- The block after a first tile: zero plus the tile's sum. -/
theorem out_at_A (c : Dev nD) (t : Fin cfg0.N) (h0 : t.val % 4 = 0) (h1 : ¬t.val % 4 = 3) (b : Fin 8) (n : Fin 4)
    (hb : b.val = t.val / 4) (hn : n.val = t.val % 4) (g : Fin 16) :
    (outsAt0 m c t.val t.isLt : S1x1x16.Idx → Ideal .f32) (ix3 (0 : Fin 1) (0 : Fin 1) g) = 0 + tileSum m c b n g := by
  rw [outsAt0_A m c t h0 h1,
    Body.out_A c (grid0.coords t) (ms0_0 t) (hs0_0 t) (ms0_1 t) (hs0_1 t) (ms0_2 t) (hs0_2 t) ((hcond0_0 t).mpr h0)
      (fun h => h1 ((hcond0_1 t).mp h)) (xblk m c t) (gblk m c t),
    Payload.pay4_apply, Payload.pay1_apply, loopVal_apply m c t b n hb hn g]

/-- The block after a middle tile: what it held plus the tile's sum. -/
theorem out_at_B (c : Dev nD) (t : Fin cfg0.N) (h0 : ¬t.val % 4 = 0) (h1 : ¬t.val % 4 = 3) (b : Fin 8) (n : Fin 4)
    (hb : b.val = t.val / 4) (hn : n.val = t.val % 4) (g : Fin 16) (tp : Fin cfg0.N) (hp : tp.val = t.val - 1) :
    (outsAt0 m c t.val t.isLt : S1x1x16.Idx → Ideal .f32) (ix3 (0 : Fin 1) (0 : Fin 1) g)
      = (outsAt0 m c tp.val tp.isLt : S1x1x16.Idx → Ideal .f32) (ix3 (0 : Fin 1) (0 : Fin 1) g) + tileSum m c b n g := by
  rw [outsAt0_B m c t h0 h1,
    Body.out_B c (grid0.coords t) (ms0_0 t) (hs0_0 t) (ms0_1 t) (hs0_1 t) (ms0_2 t) (hs0_2 t) (fun h => h0 ((hcond0_0 t).mp h))
      (fun h => h1 ((hcond0_1 t).mp h)) (xblk m c t) (gblk m c t) (outsAt0 m c (t.val - 1) (Nat.lt_of_le_of_lt (Nat.sub_le _ _) t.isLt)),
    Payload.pay4_apply, loopVal_apply m c t b n hb hn g, outs_congr m c hp.symm _ tp.isLt]

/-- The block after a last tile: what it held plus the tile's sum, scaled. -/
theorem out_at_C (c : Dev nD) (t : Fin cfg0.N) (h0 : ¬t.val % 4 = 0) (h1 : t.val % 4 = 3) (b : Fin 8) (n : Fin 4)
    (hb : b.val = t.val / 4) (hn : n.val = t.val % 4) (g : Fin 16) (tp : Fin cfg0.N) (hp : tp.val = t.val - 1) :
    (outsAt0 m c t.val t.isLt : S1x1x16.Idx → Ideal .f32) (ix3 (0 : Fin 1) (0 : Fin 1) g)
      = ((outsAt0 m c tp.val tp.isLt : S1x1x16.Idx → Ideal .f32) (ix3 (0 : Fin 1) (0 : Fin 1) g) + tileSum m c b n g)
          * Ideal.ofBits .f32 0x37800000#32 := by
  rw [outsAt0_C m c t h0 h1,
    Body.out_C c (grid0.coords t) (ms0_0 t) (hs0_0 t) (ms0_1 t) (hs0_1 t) (ms0_2 t) (hs0_2 t) (fun h => h0 ((hcond0_0 t).mp h))
      ((hcond0_1 t).mpr h1) (xblk m c t) (gblk m c t) (outsAt0 m c (t.val - 1) (Nat.lt_of_le_of_lt (Nat.sub_le _ _) t.isLt)),
    Payload.pay5_apply, Payload.pay4_apply, loopVal_apply m c t b n hb hn g, outs_congr m c hp.symm _ tp.isLt]

/-- After the last tile of batch entry `b` the block holds the tiled mean. -/
theorem out_last (c : Dev nD) (b : Fin 8) (g : Fin 16) (t3 : Fin cfg0.N) (h3 : t3.val = 4 * b.val + 3) :
    (outsAt0 m c t3.val t3.isLt : S1x1x16.Idx → Ideal .f32) (ix3 (0 : Fin 1) (0 : Fin 1) g) = kAvg oneHot (X m c) b g := by
  have hN : cfg0.N = 32 := N_0
  have hb := b.isLt
  rw [out_at_C m c t3 (by omega) (by omega) b 3 (by omega) (by rw [h3]; show 3 = (4 * b.val + 3) % 4; omega) g ⟨4 * b.val + 2, by omega⟩ (by simp only; omega),
    out_at_B m c ⟨4 * b.val + 2, by omega⟩ (by simp only; omega) (by simp only; omega) b 2 (by simp only; omega) (by show 2 = (4 * b.val + 2) % 4; omega) g
      ⟨4 * b.val + 1, by omega⟩ (by simp only; omega),
    out_at_B m c ⟨4 * b.val + 1, by omega⟩ (by simp only; omega) (by simp only; omega) b 1 (by simp only; omega) (by show 1 = (4 * b.val + 1) % 4; omega) g
      ⟨4 * b.val, by omega⟩ (by simp only; omega),
    out_at_A m c ⟨4 * b.val, by omega⟩ (by simp only; omega) (by simp only; omega) b 0 (by simp only; omega) (by show 0 = (4 * b.val) % 4; omega) g]
  show _ = (∑ n : Fin 4, tileSum m c b n g) * _
  rw [Fin.sum_univ_four, zero_add]

/-- The result array the region leaves: entry (b, 0, g) the tiled mean. -/
def result (c : Dev nD) : S8x1x16.Idx → Ideal .f32 := fun j => kAvg oneHot (X m c) (j 0) (j 2)

/-- The output's block is never cut: it is [1, 1, 16] at every point. -/
theorem xsize2 : ∀ t : Fin cfg0.N, win0_2.xsize (grid0.coords t) (0 : Fin 3) = 1 ∧ win0_2.xsize (grid0.coords t) (1 : Fin 3) = 1
      ∧ win0_2.xsize (grid0.coords t) (2 : Fin 3) = 16 :=
  (by decide +kernel : ∀ t : Fin grid0.N, win0_2.xsize (grid0.coords t) (0 : Fin 3) = 1 ∧ win0_2.xsize (grid0.coords t) (1 : Fin 3) = 1
      ∧ win0_2.xsize (grid0.coords t) (2 : Fin 3) = 16)

/-- What a write-back writes: after the last tile of batch entry `t / 4` the block is row `t / 4` of the tiled means. -/
theorem flushed_eq (c : Dev nD) (t : Fin cfg0.N) (hf : (cfg0.win 2).flush t = true) :
    (dats m 0 c).flushed 2 t = ((cfg0.win 2).blk t).view.read (Elt Ideal) (result m c) := by
  have hN : cfg0.N = 32 := N_0
  have h3 : t.val % 4 = 3 := (flush0_2 t).mp hf
  show (cfg0.win 2).cut (grid0.coords t) ((dats m 0 c).after 2 t) = _
  rw [after0_2]
  funext y
  rw [View.read_apply]
  have hx := xsize2 t
  have hy0 : (y 0).val < 1 := lt_of_lt_of_eq (y 0).isLt hx.1
  have hy1 : (y 1).val < 1 := lt_of_lt_of_eq (y 1).isLt hx.2.1
  have hy2 : (y 2).val < 16 := lt_of_lt_of_eq (y 2).isLt hx.2.2
  show (outsAt0 m c t.val t.isLt : S1x1x16.Idx → Ideal .f32) ((cfg0.win 2).xinj (grid0.coords t) y)
    = result m c (((cfg0.win 2).blk t).view.emb y)
  have e1 : ((cfg0.win 2).xinj (grid0.coords t) y : S1x1x16.Idx) = ix3 (0 : Fin 1) (0 : Fin 1) (⟨(y 2).val, hy2⟩ : Fin 16) :=
    funext fun a => Fin.ext (by
      match a with
      | ⟨0, _⟩ => show (y 0).val = 0; omega
      | ⟨1, _⟩ => show (y 1).val = 0; omega
      | ⟨2, _⟩ => rfl)
  rw [e1, out_last m c (⟨t.val / 4, by omega⟩ : Fin 8) _ t (by show t.val = 4 * (t.val / 4) + 3; omega)]
  unfold result
  congr 1 <;> apply Fin.ext
  · show t.val / 4 = win0_2.index t 0 * 1 + 1 * (y 0).val
    rw [(idx2 t).1]; omega
  · show (y 2).val = win0_2.index t 2 * 16 + 1 * (y 2).val
    rw [(idx2 t).2.2]; omega

/-- The region's result array: every entry lies in the block written back after the last tile of its batch entry, and
    that block holds the tiled means. -/
theorem final3 (c : Dev nD) (b : Fin 8) (g : Fin 16) :
    ((dats (F := Ideal) m 0 c).arrAt 2 cfg0.N : S8x1x16.Idx → Ideal .f32) (ix3 b (0 : Fin 1) g)
      = kAvg oneHot (m ((c.tc : Thread nD τ).loc main_arg0)) b g := by
  have hN : cfg0.N = 32 := N_0
  rw [(dats m 0 c).arrAt_eq_of_cover 2 (result m c) (flushed_eq m c) (fun i => by
    have h0 : (i 0).val < 8 := (i 0).isLt
    have h1 : (i 1).val < 1 := (i 1).isLt
    have h2 : (i 2).val < 16 := (i 2).isLt
    have ht : 4 * (i 0).val + 3 < cfg0.N := by omega
    refine ⟨⟨4 * (i 0).val + 3, ht⟩, (flush0_2 _).mpr (by show (4 * (i 0).val + 3) % 4 = 3; omega), ?_⟩
    show i ∈ ((View.whole main_v3).slice (win0_2.rect ⟨4 * (i 0).val + 3, ht⟩)).set
    rw [View.set_slice_whole, Rect.mem_set_unit]
    intro a
    have hi := idx2 ⟨4 * (i 0).val + 3, ht⟩
    have hx := xsize2 ⟨4 * (i 0).val + 3, ht⟩
    match a with
    | ⟨0, _⟩ =>
      show win0_2.index ⟨4 * (i 0).val + 3, ht⟩ 0 * 1 ≤ (i 0).val
        ∧ (i 0).val < win0_2.index ⟨4 * (i 0).val + 3, ht⟩ 0 * 1 + win0_2.xsize (grid0.coords ⟨4 * (i 0).val + 3, ht⟩) 0
      rw [hi.1, hx.1]; simp only; omega
    | ⟨1, _⟩ =>
      show win0_2.index ⟨4 * (i 0).val + 3, ht⟩ 1 * 1 ≤ (i 1).val
        ∧ (i 1).val < win0_2.index ⟨4 * (i 0).val + 3, ht⟩ 1 * 1 + win0_2.xsize (grid0.coords ⟨4 * (i 0).val + 3, ht⟩) 1
      rw [hi.2.1, hx.2.1]; omega
    | ⟨2, _⟩ =>
      show win0_2.index ⟨4 * (i 0).val + 3, ht⟩ 2 * 16 ≤ (i 2).val
        ∧ (i 2).val < win0_2.index ⟨4 * (i 0).val + 3, ht⟩ 2 * 16 + win0_2.xsize (grid0.coords ⟨4 * (i 0).val + 3, ht⟩) 2
      rw [hi.2.2, hx.2.2]; omega)]
  rfl

end Cert.KernelIdeal.KValue
end
-- ==== Proof.KRun.lean ====
/-
  The kernel program's run over the extended reals: it ends with the result buffer at the shared tail of the tiled mean of
  its first argument and of its targets, both arguments unchanged.
-/
import proofs.«425599_j89300960018699_3_alg».proof.Proof.KTail
import proofs.«425599_j89300960018699_3_alg».proof.Proof.KValue
import Idealize.ShloMosaic.Lib.Pipeline.Value

noncomputable section

namespace Cert.KernelIdeal.KRun

open Idealize.ShloMosaic Idealize.ShloMosaic.TcCoe Idealize.ShloMosaic.ValueIdx Idealize.SL.Sem
open Cert.KernelIdeal Cert.KernelIdeal.Gen Cert.GroupedMean

variable (m : (ℓ : Loc nD τ sig) → Buf (Elt Ideal) ℓ) (ρ : Dev nD → PrngReg)

/-- The result array reshaped from [8, 1, 16] to [8, 16] is the tiled mean as an array: both are read at the same
    row-major position. -/
theorem reshaped_eq (c : Dev nD) :
    shapeCast S8x16 (KTail.outArr m c) shapeCasts_S8x1x16_S8x16 = kAvgArr (m ((c.tc : Thread nD τ).loc main_arg0)) := by
  funext j
  obtain ⟨b, g, rfl⟩ : ∃ (b : Fin 8) (g : Fin 16), j = ix2 b g := ⟨j 0, j 1, eq_ix2 j⟩
  rw [shapeCast_apply (KTail.outArr m c) shapeCasts_S8x1x16_S8x16 (ix2 b g) (ix3 b (0 : Fin 1) g) (by
    rw [Shape.rowMajor_val_three, Shape.rowMajor_val_two]
    show (b.val * 1 + 0) * 16 + g.val = b.val * 16 + g.val
    omega)]
  exact KValue.final3 m c b g

theorem run : θ_run defs (onTc (τ := τ) (main (F := Ideal))) ⟨m, fun _ => 0, ρ⟩ fun r => ∀ c : Dev nD,
      r.2.mem ((c.tc : Thread nD τ).loc main_v39)
          = (tail tailFacts (kAvgArr (m ((c.tc : Thread nD τ).loc main_arg0))) (m ((c.tc : Thread nD τ).loc main_arg1)) : FVec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v39 (Pipeline.mem_restRefs_of main_v39 (by decide) (by decide))).trans
        ((KTail.tail_eq m c).trans (by rw [reshaped_eq])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.KRun

end
-- ==== Proof.RTerm.lean ====
/-
  The reference's averaged array as one term of its input: the operations of the reference's first stretch composed.
  Each row is shifted by its maximum (a reduce from `-∞` along the 128 classes, joined once more with `-∞`),
  exponentiated and divided by its sum (the shifted softmax); the result is contracted with the literal 128 × 16
  membership table along the classes; the 65536 rows of each batch entry are summed from zero and divided by 65536.
-/
import proofs.«425599_j89300960018699_3_alg».proof.ReferenceIdeal

noncomputable section

namespace Cert.ReferenceIdeal

open Idealize.ShloMosaic

variable {F : FTy → Type} [FloatOps F] [Facts]
open Facts₀ Facts

/-- The literal membership table as the program's constant holds it. -/
def litTable : FVec F S128x16 .f32 := fun i => FloatOps.ofBits .f32 (lit0 (S128x16.rowMajor i))

/-- The shifted softmax of every row. -/
def probsTerm (X : FVec F S8x65536x128 .f32) : FVec F S8x65536x128 .f32 :=
  let mx : FVec F S8x65536 .f32 := maximumf (broadcastInDim S8x65536 ![] bcast_S_S8x65536 (constant S_ .f32 0xFF800000#32))
    (Host.reduce FloatOps.maximumf X (constant S_ .f32 0xFF800000#32) reducesTo_S8x65536x128_S8x65536_d2 h_S_)
  let e : FVec F S8x65536x128 .f32 := Host.exp (subf X (broadcastInDim S8x65536x128 ![0, 1, 2] bcast_S8x65536x1_S8x65536x128_0_1_2
    (broadcastInDim S8x65536x1 ![0, 1] bcast_S8x65536_S8x65536x1_0_1 mx)))
  Host.divf e (broadcastInDim S8x65536x128 ![0, 1, 2] bcast_S8x65536x1_S8x65536x128_0_1_2
    (broadcastInDim S8x65536x1 ![0, 1] bcast_S8x65536_S8x65536x1_0_1
      (Host.reduceAdd e (constant S_ .f32 0x00000000#32) reducesTo_S8x65536x128_S8x65536_d2 h_S_)))

/-- The averaged [8, 16] array. -/
def avgTerm (X : FVec F S8x65536x128 .f32) : FVec F S8x16 .f32 :=
  Host.divf
    (Host.reduceAdd (Host.dotGeneral dot_S8x65536x128_S128x16_S8x65536x16_2_0_01_1_n_n none (probsTerm X) (litTable (F := F)))
      (constant S_ .f32 0x00000000#32) reducesTo_S8x65536x16_S8x16_d1 h_S_)
    (broadcastInDim S8x16 ![] bcast_S_S8x16 (constant S_ .f32 0x47800000#32))

end Cert.ReferenceIdeal

end
-- ==== Proof.RRun.lean ====
/-
  The reference's run: every weakly fair execution of its host program ends with the result buffer at the shared tail of
  its averaged array and the targets, the arguments unchanged.
-/
import proofs.«425599_j89300960018699_3_alg».proof.Proof.Gen.ReferenceIdeal
import proofs.«425599_j89300960018699_3_alg».proof.Proof.RTerm
import proofs.«425599_j89300960018699_3_alg».proof.Proof.Tail
import Idealize.ShloMosaic.Lib.StableHlo.Run

noncomputable section

namespace Cert.ReferenceIdeal.RefRun

open Idealize.ShloMosaic Idealize.SL.Sem Idealize.ShloMosaic.StableHlo
open Cert.ReferenceIdeal Cert.ReferenceIdeal.Gen Cert.GroupedMean

variable {F : FTy → Type} [FloatOps F]

/-- The program's first 60 operations, in order. -/
abbrev ops0 : List (HloOp τ sig (Elt F)) :=
  [
    StableHlo.nullary main_cst (fun i => FloatOps.ofBits .f32 (lit0 (S128x16.rowMajor i))),
    StableHlo.nullary main_cst_0 (constant S_ .f32 0xFF800000#32),
    StableHlo.binary main_arg0 main_cst_0 main_v0 ((fun x v => Host.reduce FloatOps.maximumf x v reducesTo_S8x65536x128_S8x65536_d2 h_S_) : (⟨S8x65536x128, .f32⟩ : BufTy).Contents (Elt F) → (⟨S_, .f32⟩ : BufTy).Contents (Elt F) → (⟨S8x65536, .f32⟩ : BufTy).Contents (Elt F)),
    StableHlo.nullary main_cst_1 (constant S_ .f32 0xFF800000#32),
    StableHlo.unary main_cst_1 main_v1 (broadcastInDim S8x65536 ![] bcast_S_S8x65536 : (⟨S_, .f32⟩ : BufTy).Contents (Elt F) → (⟨S8x65536, .f32⟩ : BufTy).Contents (Elt F)),
    StableHlo.binary main_v1 main_v0 main_v2 (maximumf : (⟨S8x65536, .f32⟩ : BufTy).Contents (Elt F) → (⟨S8x65536, .f32⟩ : BufTy).Contents (Elt F) → (⟨S8x65536, .f32⟩ : BufTy).Contents (Elt F)),
    StableHlo.unary main_v2 main_v3 (broadcastInDim S8x65536x1 ![0, 1] bcast_S8x65536_S8x65536x1_0_1 : (⟨S8x65536, .f32⟩ : BufTy).Contents (Elt F) → (⟨S8x65536x1, .f32⟩ : BufTy).Contents (Elt F)),
    StableHlo.unary main_v3 main_v4 (broadcastInDim S8x65536x128 ![0, 1, 2] bcast_S8x65536x1_S8x65536x128_0_1_2 : (⟨S8x65536x1, .f32⟩ : BufTy).Contents (Elt F) → (⟨S8x65536x128, .f32⟩ : BufTy).Contents (Elt F)),
    StableHlo.binary main_arg0 main_v4 main_v5 (subf : (⟨S8x65536x128, .f32⟩ : BufTy).Contents (Elt F) → (⟨S8x65536x128, .f32⟩ : BufTy).Contents (Elt F) → (⟨S8x65536x128, .f32⟩ : BufTy).Contents (Elt F)),
    StableHlo.unary main_v5 main_v6 (Host.exp : (⟨S8x65536x128, .f32⟩ : BufTy).Contents (Elt F) → (⟨S8x65536x128, .f32⟩ : BufTy).Contents (Elt F)),
    StableHlo.nullary main_cst_2 (constant S_ .f32 0x00000000#32),
    StableHlo.binary main_v6 main_cst_2 main_v7 ((fun x v => Host.reduceAdd x v reducesTo_S8x65536x128_S8x65536_d2 h_S_) : (⟨S8x65536x128, .f32⟩ : BufTy).Contents (Elt F) → (⟨S_, .f32⟩ : BufTy).Contents (Elt F) → (⟨S8x65536, .f32⟩ : BufTy).Contents (Elt F)),
    StableHlo.unary main_v7 main_v8 (broadcastInDim S8x65536x1 ![0, 1] bcast_S8x65536_S8x65536x1_0_1 : (⟨S8x65536, .f32⟩ : BufTy).Contents (Elt F) → (⟨S8x65536x1, .f32⟩ : BufTy).Contents (Elt F)),
    StableHlo.unary main_v8 main_v9 (broadcastInDim S8x65536x128 ![0, 1, 2] bcast_S8x65536x1_S8x65536x128_0_1_2 : (⟨S8x65536x1, .f32⟩ : BufTy).Contents (Elt F) → (⟨S8x65536x128, .f32⟩ : BufTy).Contents (Elt F)),
    StableHlo.binary main_v6 main_v9 main_v10 (Host.divf : (⟨S8x65536x128, .f32⟩ : BufTy).Contents (Elt F) → (⟨S8x65536x128, .f32⟩ : BufTy).Contents (Elt F) → (⟨S8x65536x128, .f32⟩ : BufTy).Contents (Elt F)),
    StableHlo.binary main_v10 main_cst main_v11 ((fun l r => Host.dotGeneral dot_S8x65536x128_S128x16_S8x65536x16_2_0_01_1_n_n none l r) : (⟨S8x65536x128, .f32⟩ : BufTy).Contents (Elt F) → (⟨S128x16, .f32⟩ : BufTy).Contents (Elt F) → (⟨S8x65536x16, .f32⟩ : BufTy).Contents (Elt F)),
    StableHlo.nullary main_cst_3 (constant S_ .f32 0x00000000#32),
    StableHlo.binary main_v11 main_cst_3 main_v12 ((fun x v => Host.reduceAdd x v reducesTo_S8x65536x16_S8x16_d1 h_S_) : (⟨S8x65536x16, .f32⟩ : BufTy).Contents (Elt F) → (⟨S_, .f32⟩ : BufTy).Contents (Elt F) → (⟨S8x16, .f32⟩ : BufTy).Contents (Elt F)),
    StableHlo.nullary main_cst_4 (constant S_ .f32 0x47800000#32),
    StableHlo.unary main_cst_4 main_v13 (broadcastInDim S8x16 ![] bcast_S_S8x16 : (⟨S_, .f32⟩ : BufTy).Contents (Elt F) → (⟨S8x16, .f32⟩ : BufTy).Contents (Elt F)),
    StableHlo.binary main_v12 main_v13 main_v14 (Host.divf : (⟨S8x16, .f32⟩ : BufTy).Contents (Elt F) → (⟨S8x16, .f32⟩ : BufTy).Contents (Elt F) → (⟨S8x16, .f32⟩ : BufTy).Contents (Elt F)),
    StableHlo.nullary main_cst_5 (constant S_ .f32 0xFF800000#32),
    StableHlo.binary main_v14 main_cst_5 main_v15 ((fun x v => Host.reduce FloatOps.maximumf x v reducesTo_S8x16_S8_d1 h_S_) : (⟨S8x16, .f32⟩ : BufTy).Contents (Elt F) → (⟨S_, .f32⟩ : BufTy).Contents (Elt F) → (⟨S8, .f32⟩ : BufTy).Contents (Elt F)),
    StableHlo.nullary main_cst_6 (constant S_ .f32 0xFF800000#32),
    StableHlo.unary main_cst_6 main_v16 (broadcastInDim S8 ![] bcast_S_S8 : (⟨S_, .f32⟩ : BufTy).Contents (Elt F) → (⟨S8, .f32⟩ : BufTy).Contents (Elt F)),
    StableHlo.binary main_v16 main_v15 main_v17 (maximumf : (⟨S8, .f32⟩ : BufTy).Contents (Elt F) → (⟨S8, .f32⟩ : BufTy).Contents (Elt F) → (⟨S8, .f32⟩ : BufTy).Contents (Elt F)),
    StableHlo.unary main_v17 main_v18 (broadcastInDim S8x1 ![0] bcast_S8_S8x1_0 : (⟨S8, .f32⟩ : BufTy).Contents (Elt F) → (⟨S8x1, .f32⟩ : BufTy).Contents (Elt F)),
    StableHlo.unary main_v18 main_v19 (broadcastInDim S8x16 ![0, 1] bcast_S8x1_S8x16_0_1 : (⟨S8x1, .f32⟩ : BufTy).Contents (Elt F) → (⟨S8x16, .f32⟩ : BufTy).Contents (Elt F)),
    StableHlo.binary main_v14 main_v19 main_v20 (subf : (⟨S8x16, .f32⟩ : BufTy).Contents (Elt F) → (⟨S8x16, .f32⟩ : BufTy).Contents (Elt F) → (⟨S8x16, .f32⟩ : BufTy).Contents (Elt F)),
    StableHlo.unary main_v20 main_v21 (Host.exp : (⟨S8x16, .f32⟩ : BufTy).Contents (Elt F) → (⟨S8x16, .f32⟩ : BufTy).Contents (Elt F)),
    StableHlo.nullary main_cst_7 (constant S_ .f32 0x00000000#32),
    StableHlo.binary main_v21 main_cst_7 main_v22 ((fun x v => Host.reduceAdd x v reducesTo_S8x16_S8_d1 h_S_) : (⟨S8x16, .f32⟩ : BufTy).Contents (Elt F) → (⟨S_, .f32⟩ : BufTy).Contents (Elt F) → (⟨S8, .f32⟩ : BufTy).Contents (Elt F)),
    StableHlo.unary main_v22 main_v23 (broadcastInDim S8x1 ![0] bcast_S8_S8x1_0 : (⟨S8, .f32⟩ : BufTy).Contents (Elt F) → (⟨S8x1, .f32⟩ : BufTy).Contents (Elt F)),
    StableHlo.unary main_v23 main_v24 (broadcastInDim S8x16 ![0, 1] bcast_S8x1_S8x16_0_1 : (⟨S8x1, .f32⟩ : BufTy).Contents (Elt F) → (⟨S8x16, .f32⟩ : BufTy).Contents (Elt F)),
    StableHlo.binary main_v21 main_v24 main_v25 (Host.divf : (⟨S8x16, .f32⟩ : BufTy).Contents (Elt F) → (⟨S8x16, .f32⟩ : BufTy).Contents (Elt F) → (⟨S8x16, .f32⟩ : BufTy).Contents (Elt F)),
    StableHlo.nullary main_cst_8 (constant S_ .f32 0x42C80000#32),
    StableHlo.unary main_cst_8 main_v26 (broadcastInDim S8x16 ![] bcast_S_S8x16 : (⟨S_, .f32⟩ : BufTy).Contents (Elt F) → (⟨S8x16, .f32⟩ : BufTy).Contents (Elt F)),
    StableHlo.binary main_arg1 main_v26 main_v27 (Host.divf : (⟨S8x16, .f32⟩ : BufTy).Contents (Elt F) → (⟨S8x16, .f32⟩ : BufTy).Contents (Elt F) → (⟨S8x16, .f32⟩ : BufTy).Contents (Elt F)),
    StableHlo.nullary main_cst_9 (constant S_ .f32 0xFF800000#32),
    StableHlo.binary main_v27 main_cst_9 main_v28 ((fun x v => Host.reduce FloatOps.maximumf x v reducesTo_S8x16_S8_d1 h_S_) : (⟨S8x16, .f32⟩ : BufTy).Contents (Elt F) → (⟨S_, .f32⟩ : BufTy).Contents (Elt F) → (⟨S8, .f32⟩ : BufTy).Contents (Elt F)),
    StableHlo.nullary main_cst_10 (constant S_ .f32 0xFF800000#32),
    StableHlo.unary main_cst_10 main_v29 (broadcastInDim S8 ![] bcast_S_S8 : (⟨S_, .f32⟩ : BufTy).Contents (Elt F) → (⟨S8, .f32⟩ : BufTy).Contents (Elt F)),
    StableHlo.binary main_v29 main_v28 main_v30 (maximumf : (⟨S8, .f32⟩ : BufTy).Contents (Elt F) → (⟨S8, .f32⟩ : BufTy).Contents (Elt F) → (⟨S8, .f32⟩ : BufTy).Contents (Elt F)),
    StableHlo.unary main_v30 main_v31 (broadcastInDim S8x1 ![0] bcast_S8_S8x1_0 : (⟨S8, .f32⟩ : BufTy).Contents (Elt F) → (⟨S8x1, .f32⟩ : BufTy).Contents (Elt F)),
    StableHlo.unary main_v31 main_v32 (broadcastInDim S8x16 ![0, 1] bcast_S8x1_S8x16_0_1 : (⟨S8x1, .f32⟩ : BufTy).Contents (Elt F) → (⟨S8x16, .f32⟩ : BufTy).Contents (Elt F)),
    StableHlo.binary main_v27 main_v32 main_v33 (subf : (⟨S8x16, .f32⟩ : BufTy).Contents (Elt F) → (⟨S8x16, .f32⟩ : BufTy).Contents (Elt F) → (⟨S8x16, .f32⟩ : BufTy).Contents (Elt F)),
    StableHlo.unary main_v33 main_v34 (Host.exp : (⟨S8x16, .f32⟩ : BufTy).Contents (Elt F) → (⟨S8x16, .f32⟩ : BufTy).Contents (Elt F)),
    StableHlo.nullary main_cst_11 (constant S_ .f32 0x00000000#32),
    StableHlo.binary main_v34 main_cst_11 main_v35 ((fun x v => Host.reduceAdd x v reducesTo_S8x16_S8_d1 h_S_) : (⟨S8x16, .f32⟩ : BufTy).Contents (Elt F) → (⟨S_, .f32⟩ : BufTy).Contents (Elt F) → (⟨S8, .f32⟩ : BufTy).Contents (Elt F)),
    StableHlo.unary main_v35 main_v36 (broadcastInDim S8x1 ![0] bcast_S8_S8x1_0 : (⟨S8, .f32⟩ : BufTy).Contents (Elt F) → (⟨S8x1, .f32⟩ : BufTy).Contents (Elt F)),
    StableHlo.unary main_v36 main_v37 (broadcastInDim S8x16 ![0, 1] bcast_S8x1_S8x16_0_1 : (⟨S8x1, .f32⟩ : BufTy).Contents (Elt F) → (⟨S8x16, .f32⟩ : BufTy).Contents (Elt F)),
    StableHlo.binary main_v34 main_v37 main_v38 (Host.divf : (⟨S8x16, .f32⟩ : BufTy).Contents (Elt F) → (⟨S8x16, .f32⟩ : BufTy).Contents (Elt F) → (⟨S8x16, .f32⟩ : BufTy).Contents (Elt F)),
    StableHlo.nullary main_cst_12 (constant S_ .f32 0x322BCC77#32),
    StableHlo.unary main_cst_12 main_v39 (broadcastInDim S8x16 ![] bcast_S_S8x16 : (⟨S_, .f32⟩ : BufTy).Contents (Elt F) → (⟨S8x16, .f32⟩ : BufTy).Contents (Elt F)),
    StableHlo.binary main_v25 main_v39 main_v40 (addf : (⟨S8x16, .f32⟩ : BufTy).Contents (Elt F) → (⟨S8x16, .f32⟩ : BufTy).Contents (Elt F) → (⟨S8x16, .f32⟩ : BufTy).Contents (Elt F)),
    StableHlo.unary main_v40 main_v41 (Host.log : (⟨S8x16, .f32⟩ : BufTy).Contents (Elt F) → (⟨S8x16, .f32⟩ : BufTy).Contents (Elt F)),
    StableHlo.unary main_v38 main_v42 (Host.log : (⟨S8x16, .f32⟩ : BufTy).Contents (Elt F) → (⟨S8x16, .f32⟩ : BufTy).Contents (Elt F)),
    StableHlo.binary main_v42 main_v41 main_v43 (subf : (⟨S8x16, .f32⟩ : BufTy).Contents (Elt F) → (⟨S8x16, .f32⟩ : BufTy).Contents (Elt F) → (⟨S8x16, .f32⟩ : BufTy).Contents (Elt F)),
    StableHlo.binary main_v38 main_v43 main_v44 (mulf : (⟨S8x16, .f32⟩ : BufTy).Contents (Elt F) → (⟨S8x16, .f32⟩ : BufTy).Contents (Elt F) → (⟨S8x16, .f32⟩ : BufTy).Contents (Elt F)),
    StableHlo.nullary main_cst_13 (constant S_ .f32 0x00000000#32) ]

/-- Its last 8 operations, in order. -/
abbrev ops1 : List (HloOp τ sig (Elt F)) :=
  [
    StableHlo.binary main_v44 main_cst_13 main_v45 ((fun x v => Host.reduceAdd x v reducesTo_S8x16_S8_d1 h_S_) : (⟨S8x16, .f32⟩ : BufTy).Contents (Elt F) → (⟨S_, .f32⟩ : BufTy).Contents (Elt F) → (⟨S8, .f32⟩ : BufTy).Contents (Elt F)),
    StableHlo.nullary main_cst_14 (constant S_ .f32 0x41800000#32),
    StableHlo.unary main_cst_14 main_v46 (broadcastInDim S8 ![] bcast_S_S8 : (⟨S_, .f32⟩ : BufTy).Contents (Elt F) → (⟨S8, .f32⟩ : BufTy).Contents (Elt F)),
    StableHlo.binary main_v45 main_v46 main_v47 (Host.divf : (⟨S8, .f32⟩ : BufTy).Contents (Elt F) → (⟨S8, .f32⟩ : BufTy).Contents (Elt F) → (⟨S8, .f32⟩ : BufTy).Contents (Elt F)),
    StableHlo.nullary main_cst_15 (constant S_ .f32 0x00000000#32),
    StableHlo.binary main_v47 main_cst_15 main_v48 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    StableHlo.nullary main_cst_16 (constant S_ .f32 0x41000000#32),
    StableHlo.binary main_v48 main_cst_16 main_v49 (Host.divf : (⟨S_, .f32⟩ : BufTy).Contents (Elt F) → (⟨S_, .f32⟩ : BufTy).Contents (Elt F) → (⟨S_, .f32⟩ : BufTy).Contents (Elt F)) ]

theorem part0_eq (c : Dev nD) : main_part0 (F := F) c = seq ops0 := rfl
theorem part1_eq (c : Dev nD) : main_part1 (F := F) c = seq ops1 := rfl

/-- The whole program is the two stretches run one after the other. -/
theorem main_eq (c : Dev nD) : main (F := F) c = seq (ops0 ++ ops1) :=
  (congrArg₂ (fun a b => a >>= fun _ => b) (part0_eq c) (part1_eq c)).trans (seq_append ops0 ops1).symm

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., nullary_bufs_sub ..⟩
theorem ops1_sub : (ops1 : List (HloOp τ sig (Elt F))).Forall fun op => op.bufs ⊆ tcRefs τ sig :=
  ⟨binary_bufs_sub .., nullary_bufs_sub .., unary_bufs_sub .., binary_bufs_sub .., nullary_bufs_sub .., binary_bufs_sub .., nullary_bufs_sub .., binary_bufs_sub ..⟩

theorem ops_sub : (ops0 ++ ops1 : List (HloOp τ sig (Elt F))).Forall fun op => op.bufs ⊆ tcRefs τ sig := by
  rw [List.forall_iff_forall_mem]
  intro op h
  rcases List.mem_append.mp h with h | h
  · exact List.forall_iff_forall_mem.mp ops0_sub op h
  · exact List.forall_iff_forall_mem.mp ops1_sub op h

/-- The contents after two stretches are the second's after the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem ops_fresh : ∀ op ∈ (ops0 ++ ops1 : List (HloOp τ sig (Elt F))), op.fresh = ∅ := by
  intro op h
  rcases List.mem_append.mp h with h | h
  · (repeat (cases h with | head => rfl | tail _ h => ?_)); exact nomatch h
  · (repeat (cases h with | head => rfl | tail _ h => ?_)); exact nomatch h

section Results

variable (m : (ℓ : Loc nD τ sig) → Buf (Elt F) ℓ) (c : Dev nD)

theorem res_arg0 : after (ops0 ++ ops1) (launchContents m c) (Proc.devRef .tc main_arg0)
    = m ((c.tc : Thread nD τ).loc main_arg0) := by
  rw [after_app]
  after_results_simp

theorem res_arg1 : after (ops0 ++ ops1) (launchContents m c) (Proc.devRef .tc main_arg1)
    = m ((c.tc : Thread nD τ).loc main_arg1) := by
  rw [after_app]
  after_results_simp

theorem res_v49 : after (ops0 ++ ops1) (launchContents m c) (Proc.devRef .tc main_v49)
    = (tail tailFacts (avgTerm (m ((c.tc : Thread nD τ).loc main_arg0))) (m ((c.tc : Thread nD τ).loc main_arg1)) : FVec F S_ .f32) := by
  rw [after_app]
  after_results_simp
  rfl

end Results

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v49)
          = (tail tailFacts (avgTerm (m ((c.tc : Thread nD τ).loc main_arg0))) (m ((c.tc : Thread nD τ).loc main_arg1)) : FVec F S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v49).trans (res_v49 m c), (h c main_arg0).trans (res_arg0 m c),
      (h c main_arg1).trans (res_arg1 m c)⟩)
    (run_seq scopedRefs_eq scopedSems_eq defs main (fun _ => ops0 ++ ops1) main_eq (fun _ => ops_sub) m ρ
      (fun _ => ops_fresh))

end Cert.ReferenceIdeal.RefRun

end
-- ==== Proof.RValue.lean ====
/-
  The reference's averaged array read at an index: entry (b, g) is the plain mean over the 65536 rows of the grouped
  shifted softmax, with the literal table's membership weights.

  The table first: its 2048 words are decided to be the pattern of 1 where class / 8 = group and the pattern of 0
  elsewhere, and entry (class, group) sits at row-major position 16 · class + group. Then the averaged array, one
  operation at a time at explicit coordinates: the row maximum is the fold of max from -∞ over the 128 classes joined
  once more with -∞; the two broadcasts carry a per-row value to every class of the row; the sums along one axis from
  zero are the sums over that axis's coordinates; the contraction with the table is the sum over the classes of the
  products; the last division is by the pattern of 65536 broadcast from a scalar.
-/
import proofs.«425599_j89300960018699_3_alg».proof.Proof.Gen.ReferenceIdeal
import proofs.«425599_j89300960018699_3_alg».proof.Proof.RTerm
import proofs.«425599_j89300960018699_3_alg».proof.Proof.Spec
import Idealize.ShloMosaic.PureOps.Ideal.Laws
import Idealize.ShloMosaic.Lib.ValueIdx
import Idealize.ShloMosaic.Lib.IdealHost
import Idealize.ShloMosaic.Lib.Pipeline.Value

noncomputable section

namespace Cert.ReferenceIdeal.RefValue

open Idealize.ShloMosaic Idealize.ShloMosaic.ValueIdx
open Cert.ReferenceIdeal Cert.ReferenceIdeal.Gen Cert.GroupedMean
open scoped BigOperators

/-! ### The literal table -/

/-- Every word of the table: the pattern of 1 where the position's class (position / 16) lies in the position's group
    (position % 16), the pattern of 0 elsewhere. -/
theorem lit0_eq : ∀ i : Fin 2048, lit0 i = if i.val / 16 / 8 = i.val % 16 then 0x3F800000#32 else 0x00000000#32 := by
  decide +kernel

/-- The literal table holds 1 where the class lies in the group and 0 elsewhere. -/
theorem litTable_apply (cl : Fin 128) (g : Fin 16) : litTable (F := Ideal) (ix2 cl g) = oneHot cl g := by
  unfold litTable oneHot
  show Ideal.ofBits .f32 (lit0 (S128x16.rowMajor (ix2 cl g))) = _
  have hv : (S128x16.rowMajor (ix2 cl g)).val = cl.val * 16 + g.val := Shape.rowMajor_val_two _
  have h1 : (cl.val * 16 + g.val) / 16 / 8 = cl.val / 8 := by have := g.isLt; omega
  have h2 : (cl.val * 16 + g.val) % 16 = g.val := by have := g.isLt; omega
  refine (congrArg (Ideal.ofBits .f32) (lit0_eq (S128x16.rowMajor (ix2 cl g)))).trans ?_
  rw [hv, h1, h2]
  split_ifs
  · exact Ideal.ofBits_one_f32
  · exact Ideal.ofBits_zero_f32

/-! ### The two broadcasts of a per-row value along the classes, at explicit coordinates -/

/-- A per-row array given a trailing unit axis reads the row's value. -/
theorem bcast_unit_apply {α : Type} (h : S8x65536.BroadcastsInDim S8x65536x1 (![0, 1] : Fin 2 → Fin S8x65536x1.rank))
    (m : S8x65536.Idx → α) (b : Fin 8) (n : Fin 65536) (u : Fin 1) :
    broadcastInDim S8x65536x1 ![0, 1] h m (ix3 b n u) = m (ix2 b n) := by
  unfold broadcastInDim
  exact congrArg m (funext fun a => Fin.ext (by match a with | ⟨0, _⟩ => rfl | ⟨1, _⟩ => rfl))

/-- The unit axis stretched over the 128 classes reads the unit entry. -/
theorem bcast_classes_apply {α : Type} (h : S8x65536x1.BroadcastsInDim S8x65536x128 (![0, 1, 2] : Fin 3 → Fin S8x65536x128.rank))
    (y : S8x65536x1.Idx → α) (b : Fin 8) (n : Fin 65536) (c : Fin 128) :
    broadcastInDim S8x65536x128 ![0, 1, 2] h y (ix3 b n c) = y (ix3 b n (0 : Fin 1)) := by
  unfold broadcastInDim
  exact congrArg y (funext fun a => Fin.ext (by match a with | ⟨0, _⟩ => rfl | ⟨1, _⟩ => rfl | ⟨2, _⟩ => rfl))

/-- The pattern of minus infinity. -/
theorem ofBits_neg_inf_f32 : Ideal.ofBits .f32 0xFF800000#32 = ⊥ := by
  simp [Ideal.ofBits, Ideal.ieee]

/-! ### The row maximum -/

theorem rowmax_apply (X : FVec Ideal S8x65536x128 .f32) (hb : S_.BroadcastsInDim S8x65536 (![] : Fin 0 → Fin S8x65536.rank))
    (h' : S8x65536x128.ReducesTo [2] S8x65536) (hu : 0 < S_.numel) (b : Fin 8) (n : Fin 65536) :
    maximumf (broadcastInDim S8x65536 ![] hb (constant (F := Ideal) S_ .f32 0xFF800000#32))
      (Host.reduce FloatOps.maximumf X (constant (F := Ideal) S_ .f32 0xFF800000#32) h' hu) (ix2 b n)
      = rowMax (row X b n) := by
  have h : S8x65536x128.Reduces [2] S8x65536 := by decide
  rw [maximumf_apply, broadcastInDim_scalar_apply, constant_apply, ofBits_neg_inf_f32,
    Host.reduce_eq_fold_single FloatOps.maximumf X _ h' h hu, constant_apply, ofBits_neg_inf_f32]
  unfold rowMax
  refine congrArg (max ⊥) ?_
  have e : (X ∘ h.lift (ix2 b n) : Fin 128 → EReal) = row X b n := funext fun c => congrArg X (funext fun a => Fin.ext (by
    match a with | ⟨0, _⟩ => rfl | ⟨1, _⟩ => rfl | ⟨2, _⟩ => rfl))
  exact congrArg (fun f : Fin 128 → EReal => (Finset.univ : Finset (Fin 128)).fold max ⊥ f) e

/-! ### A sum along the classes, and a sum along the rows -/

/-- The sum along the classes from zero, at a row. -/
theorem sum_classes_apply (E : FVec Ideal S8x65536x128 .f32) (h' : S8x65536x128.ReducesTo [2] S8x65536) (hu : 0 < S_.numel)
    (b : Fin 8) (n : Fin 65536) :
    Host.reduceAdd E (constant (F := Ideal) S_ .f32 0x00000000#32) h' hu (ix2 b n) = ∑ c : Fin 128, E (ix3 b n c) := by
  have h : S8x65536x128.Reduces [2] S8x65536 := by decide
  rw [hostReduceAdd_apply, Ideal.hostReduceAdd_single h' h, constant_apply, Ideal.ofBits_zero_f32, zero_add]
  exact Finset.sum_congr rfl fun c _ => congrArg E (funext fun a => Fin.ext (by
    match a with | ⟨0, _⟩ => rfl | ⟨1, _⟩ => rfl | ⟨2, _⟩ => rfl))

/-- The sum along the rows from zero, at a batch entry and a group. -/
theorem sum_rows_apply (Z : FVec Ideal S8x65536x16 .f32) (h' : S8x65536x16.ReducesTo [1] S8x16) (hu : 0 < S_.numel)
    (b : Fin 8) (g : Fin 16) :
    Host.reduceAdd Z (constant (F := Ideal) S_ .f32 0x00000000#32) h' hu (ix2 b g) = ∑ n : Fin 65536, Z (ix3 b n g) := by
  have h : S8x65536x16.Reduces [1] S8x16 := by decide
  rw [hostReduceAdd_apply, Ideal.hostReduceAdd_single h' h, constant_apply, Ideal.ofBits_zero_f32, zero_add]
  exact Finset.sum_congr rfl fun n _ => congrArg Z (funext fun a => Fin.ext (by
    match a with | ⟨0, _⟩ => rfl | ⟨1, _⟩ => rfl | ⟨2, _⟩ => rfl))

/-! ### The shifted softmax at an entry -/

theorem probs_apply [Facts] (X : FVec Ideal S8x65536x128 .f32) (b : Fin 8) (n : Fin 65536) (c : Fin 128) :
    probsTerm (F := Ideal) X (ix3 b n c)
      = Ideal.div (Ideal.exp (X (ix3 b n c) - rowMax (row X b n)))
          (∑ c' : Fin 128, Ideal.exp (X (ix3 b n c') - rowMax (row X b n))) := by
  unfold probsTerm
  dsimp only
  have he : ∀ c' : Fin 128,
      Host.exp (subf X (broadcastInDim S8x65536x128 ![0, 1, 2] Facts₀.bcast_S8x65536x1_S8x65536x128_0_1_2
        (broadcastInDim S8x65536x1 ![0, 1] Facts₀.bcast_S8x65536_S8x65536x1_0_1
          (maximumf (broadcastInDim S8x65536 ![] Facts₀.bcast_S_S8x65536 (constant (F := Ideal) S_ .f32 0xFF800000#32))
            (Host.reduce FloatOps.maximumf X (constant (F := Ideal) S_ .f32 0xFF800000#32)
              Facts₀.reducesTo_S8x65536x128_S8x65536_d2 Facts₀.h_S_))))) (ix3 b n c')
        = Ideal.exp (X (ix3 b n c') - rowMax (row X b n)) := by
    intro c'
    show Ideal.exp (_ - _) = _
    rw [bcast_classes_apply, bcast_unit_apply, rowmax_apply]
  rw [hostDivf_apply, bcast_classes_apply, bcast_unit_apply, sum_classes_apply, he c]
  exact congrArg _ (Finset.sum_congr rfl fun c' _ => he c')

/-! ### The contraction along the classes -/

theorem lhs_dot_0 (i : S8x65536x16.Idx) (q : dot_S8x65536x128_S128x16_S8x65536x16_2_0_01_1_n_n.contr.Idx) :
    (dot_S8x65536x128_S128x16_S8x65536x16_2_0_01_1_n_n.lhsIdx i q 0).val = (i 0).val := by
  unfold DotDims.lhsIdx
  rw [dif_neg (show ¬(0 : Fin S8x65536x128.rank) ∈ dot_S8x65536x128_S128x16_S8x65536x16_2_0_01_1_n_n.lhsBatch by decide),
    dif_pos (show (0 : Fin S8x65536x128.rank) ∈ dot_S8x65536x128_S128x16_S8x65536x16_2_0_01_1_n_n.lhsNonContracting by decide)]
  rfl

theorem lhs_dot_1 (i : S8x65536x16.Idx) (q : dot_S8x65536x128_S128x16_S8x65536x16_2_0_01_1_n_n.contr.Idx) :
    (dot_S8x65536x128_S128x16_S8x65536x16_2_0_01_1_n_n.lhsIdx i q 1).val = (i 1).val := by
  unfold DotDims.lhsIdx
  rw [dif_neg (show ¬(1 : Fin S8x65536x128.rank) ∈ dot_S8x65536x128_S128x16_S8x65536x16_2_0_01_1_n_n.lhsBatch by decide),
    dif_pos (show (1 : Fin S8x65536x128.rank) ∈ dot_S8x65536x128_S128x16_S8x65536x16_2_0_01_1_n_n.lhsNonContracting by decide)]
  rfl

theorem lhs_dot_2 (i : S8x65536x16.Idx) (q : dot_S8x65536x128_S128x16_S8x65536x16_2_0_01_1_n_n.contr.Idx) :
    (dot_S8x65536x128_S128x16_S8x65536x16_2_0_01_1_n_n.lhsIdx i q 2).val = (q ⟨0, by decide⟩).val :=
  dot_S8x65536x128_S128x16_S8x65536x16_2_0_01_1_n_n.lhsIdx_val_of_single rfl i q

theorem rhs_dot_0 (i : S8x65536x16.Idx) (q : dot_S8x65536x128_S128x16_S8x65536x16_2_0_01_1_n_n.contr.Idx) :
    (dot_S8x65536x128_S128x16_S8x65536x16_2_0_01_1_n_n.rhsIdx i q 0).val = (q ⟨0, by decide⟩).val :=
  dot_S8x65536x128_S128x16_S8x65536x16_2_0_01_1_n_n.rhsIdx_val_of_single rfl i q

theorem rhs_dot_1 (i : S8x65536x16.Idx) (q : dot_S8x65536x128_S128x16_S8x65536x16_2_0_01_1_n_n.contr.Idx) :
    (dot_S8x65536x128_S128x16_S8x65536x16_2_0_01_1_n_n.rhsIdx i q 1).val = (i 2).val := by
  unfold DotDims.rhsIdx
  rw [dif_neg (show ¬(1 : Fin S128x16.rank) ∈ dot_S8x65536x128_S128x16_S8x65536x16_2_0_01_1_n_n.rhsBatch by decide),
    dif_pos (show (1 : Fin S128x16.rank) ∈ dot_S8x65536x128_S128x16_S8x65536x16_2_0_01_1_n_n.rhsNonContracting by decide)]
  rfl

/-- The product with the table at (b, n, g): the sum over the classes of the row's entry times the table's. -/
theorem dot_apply (P : FVec Ideal S8x65536x128 .f32) (L : FVec Ideal S128x16 .f32) (b : Fin 8) (n : Fin 65536) (g : Fin 16) :
    Host.dotGeneral dot_S8x65536x128_S128x16_S8x65536x16_2_0_01_1_n_n none P L (ix3 b n g) = ∑ c : Fin 128, P (ix3 b n c) * L (ix2 c g) := by
  simp only [Host.dotGeneral]
  rw [Ideal.dotGeneral_apply, ← Equiv.sum_comp (contrEquiv1 dot_S8x65536x128_S128x16_S8x65536x16_2_0_01_1_n_n 128 rfl rfl).symm]
  refine Finset.sum_congr rfl fun c _ => ?_
  have hc := contrEquiv1_symm_val dot_S8x65536x128_S128x16_S8x65536x16_2_0_01_1_n_n 128 rfl rfl c
  have el : dot_S8x65536x128_S128x16_S8x65536x16_2_0_01_1_n_n.lhsIdx (ix3 b n g) ((contrEquiv1 dot_S8x65536x128_S128x16_S8x65536x16_2_0_01_1_n_n 128 rfl rfl).symm c) = ix3 b n c :=
    funext fun a => Fin.ext (by
      match a with
      | ⟨0, _⟩ => exact lhs_dot_0 _ _
      | ⟨1, _⟩ => exact lhs_dot_1 _ _
      | ⟨2, _⟩ => exact (lhs_dot_2 _ _).trans hc)
  have er : dot_S8x65536x128_S128x16_S8x65536x16_2_0_01_1_n_n.rhsIdx (ix3 b n g) ((contrEquiv1 dot_S8x65536x128_S128x16_S8x65536x16_2_0_01_1_n_n 128 rfl rfl).symm c) = ix2 c g :=
    funext fun a => Fin.ext (by
      match a with
      | ⟨0, _⟩ => exact (rhs_dot_0 _ _).trans hc
      | ⟨1, _⟩ => exact rhs_dot_1 _ _)
  rw [el, er]

/-! ### The averaged array at an entry -/

theorem avgTerm_apply (X : FVec Ideal S8x65536x128 .f32) (b : Fin 8) (g : Fin 16) :
    avgTerm (F := Ideal) X (ix2 b g) = rAvg oneHot X b g := by
  unfold avgTerm rAvg
  rw [hostDivf_apply, broadcastInDim_scalar_apply, constant_apply, sum_rows_apply]
  refine congrArg (fun s => Ideal.div s (Ideal.ofBits .f32 0x47800000#32)) (Finset.sum_congr rfl fun n _ => ?_)
  rw [dot_apply]
  unfold rRow
  exact Finset.sum_congr rfl fun c _ => by rw [probs_apply, litTable_apply]; rfl

end Cert.ReferenceIdeal.RefValue

end
-- ==== Proof.Algebra.lean ====
/-
  The two means agree on finite inputs.
-/
import proofs.«425599_j89300960018699_3_alg».proof.Proof.Spec
import Mathlib.Data.Finset.Fold
import Mathlib.Data.Fintype.BigOperators
import Mathlib.Data.EReal.Inv
import Mathlib.Analysis.Complex.Exponential
import Mathlib.Tactic.FieldSimp

noncomputable section

open Idealize.ShloMosaic Idealize.ShloMosaic.ValueIdx
open scoped BigOperators

namespace Cert.GroupedMean

/-! ### Finite sums of reals inside the extended reals -/

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### The membership matrix -/

/-- The membership matrix as a real 0/1 matrix. -/
def ind (c : Fin 128) (g : Fin 16) : ℝ := if c.val / 8 = g.val then 1 else 0

theorem oneHot_eq (c : Fin 128) (g : Fin 16) : oneHot c g = ((ind c g : ℝ) : EReal) := by
  unfold oneHot ind
  split_ifs <;> simp

/-- Every class lies in exactly one group. -/
theorem sum_ind (c : Fin 128) : ∑ g : Fin 16, ind c g = 1 := by
  have hc := c.isLt
  rw [Finset.sum_eq_single (⟨c.val / 8, by omega⟩ : Fin 16)]
  · simp [ind]
  · intro g _ hg
    unfold ind
    rw [if_neg]
    intro h
    exact hg (Fin.ext h.symm)
  · intro h
    exact absurd (Finset.mem_univ _) h

/-! ### A finite row's maximum is a real number -/

theorem rowMax_real (r : Fin 128 → ℝ) : ∃ M : ℝ, rowMax (fun c => (r c : EReal)) = (M : EReal) := by
  have h1 : rowMax (fun c => (r c : EReal)) ≠ ⊤ := by
    unfold rowMax
    rw [max_eq_right bot_le]
    apply ne_of_lt
    rw [Finset.fold_max_lt]
    exact ⟨bot_lt_top, fun c _ => EReal.coe_lt_top _⟩
  have h2 : rowMax (fun c => (r c : EReal)) ≠ ⊥ := by
    unfold rowMax
    rw [max_eq_right bot_le]
    apply ne_of_gt
    apply lt_of_lt_of_le (EReal.bot_lt_coe (r 0))
    rw [Finset.le_fold_max]
    exact Or.inr ⟨0, Finset.mem_univ _, le_rfl⟩
  exact ⟨_, (EReal.coe_toReal h1 h2).symm⟩

/-! ### The row identity -/

/-- The post-normalised grouped exponentials of a real row, as a real number. -/
theorem kRow_real (r : Fin 128 → ℝ) (g : Fin 16) :
    kRow oneHot (fun c => (r c : EReal)) g
      = (((∑ c, Real.exp (r c) * ind c g) * (1 / ∑ c, Real.exp (r c)) : ℝ) : EReal) := by
  have hden : (∑ g' : Fin 16, ∑ c : Fin 128, Real.exp (r c) * ind c g') = ∑ c, Real.exp (r c) := by
    rw [Finset.sum_comm]
    refine Finset.sum_congr rfl (fun c _ => ?_)
    rw [← Finset.mul_sum, sum_ind, mul_one]
  have hpos : (0 : ℝ) < ∑ c : Fin 128, Real.exp (r c) :=
    Finset.sum_pos (fun c _ => Real.exp_pos _) Finset.univ_nonempty
  unfold kRow
  simp only [Ideal.exp_coe, oneHot_eq, ← EReal.coe_mul, ← coe_finset_sum]
  rw [hden, Ideal.div_coe hpos.ne', one_mul, ← EReal.coe_mul]

/-- The grouped shifted softmax of a real row, whatever real the shift is, as a real number. -/
theorem rRow_real (r : Fin 128 → ℝ) (M : ℝ) (hM : rowMax (fun c => (r c : EReal)) = (M : EReal)) (g : Fin 16) :
    rRow oneHot (fun c => (r c : EReal)) g
      = ((∑ c, Real.exp (r c - M) * (1 / ∑ c', Real.exp (r c' - M)) * ind c g : ℝ) : EReal) := by
  have hpos : (0 : ℝ) < ∑ c : Fin 128, Real.exp (r c - M) :=
    Finset.sum_pos (fun c _ => Real.exp_pos _) Finset.univ_nonempty
  unfold rRow
  rw [hM]
  simp only [← EReal.coe_sub, Ideal.exp_coe, oneHot_eq, ← coe_finset_sum]
  simp only [Ideal.div_coe hpos.ne', ← EReal.coe_mul, ← coe_finset_sum]

/-- On a real row the two groupings agree. -/
theorem kRow_eq_rRow (x : Fin 128 → EReal) (hx : ∀ c, ∃ r : ℝ, x c = (r : EReal)) (g : Fin 16) :
    kRow oneHot x g = rRow oneHot x g := by
  choose r hr using hx
  obtain rfl : x = fun c => (r c : EReal) := funext hr
  obtain ⟨M, hM⟩ := rowMax_real r
  rw [kRow_real, rRow_real r M hM]
  congr 1
  have hE : Real.exp M ≠ 0 := (Real.exp_pos M).ne'
  have hS : (∑ c : Fin 128, Real.exp (r c)) ≠ 0 :=
    (Finset.sum_pos (fun c _ => Real.exp_pos _) Finset.univ_nonempty).ne'
  have hS' : (∑ c : Fin 128, Real.exp (r c - M)) = (∑ c : Fin 128, Real.exp (r c)) / Real.exp M := by
    rw [Finset.sum_div]
    exact Finset.sum_congr rfl (fun c _ => Real.exp_sub _ _)
  rw [hS', Finset.sum_mul]
  refine Finset.sum_congr rfl (fun c _ => ?_)
  rw [Real.exp_sub]
  field_simp

/-! ### The tiled sum is the plain sum -/

/-- Tile, half and row within the half number the 65536 rows bijectively. -/
def rowEquiv : Fin 4 × Fin 2 × Fin 8192 ≃ Fin 65536 where
  toFun p := rowIx p.1 p.2.1 p.2.2
  invFun N := (⟨N.val / 16384, by have := N.isLt; omega⟩, ⟨N.val % 16384 / 8192, by omega⟩,
    ⟨N.val % 8192, by omega⟩)
  left_inv := by
    rintro ⟨n, h, r⟩
    have := n.isLt; have := h.isLt; have := r.isLt
    simp only [rowIx, Prod.mk.injEq]
    refine ⟨Fin.ext ?_, Fin.ext ?_, Fin.ext ?_⟩ <;> simp only <;> omega
  right_inv := by
    intro N
    have := N.isLt
    simp only [rowIx]
    apply Fin.ext
    simp only
    omega

theorem sum_rowIx {A : Type*} [AddCommMonoid A] (f : Fin 65536 → A) :
    ∑ n : Fin 4, ∑ h : Fin 2, ∑ r : Fin 8192, f (rowIx n h r) = ∑ N : Fin 65536, f N := by
  rw [← Fintype.sum_equiv rowEquiv (fun p => f (rowIx p.1 p.2.1 p.2.2)) f (fun p => rfl)]
  rw [Fintype.sum_prod_type]
  refine Finset.sum_congr rfl (fun n _ => ?_)
  rw [Fintype.sum_prod_type]

/-! ### The two scaling constants -/

/-- The pattern 0x37800000 denotes 2⁻¹⁶. -/
theorem ofBits_inv65536 : Ideal.ofBits .f32 0x37800000#32 = (((1 : ℝ) / 65536 : ℝ) : EReal) := by
  simp [Ideal.ofBits, Ideal.ieee, -EReal.coe_mul]; norm_num

/-- The pattern 0x47800000 denotes 65536. -/
theorem ofBits_65536 : Ideal.ofBits .f32 0x47800000#32 = ((65536 : ℝ) : EReal) := by
  simp [Ideal.ofBits, Ideal.ieee, -EReal.coe_mul]; norm_num

/-! ### The assembly -/

/-- On an input all of whose entries are real numbers, the tiled mean of the post-normalised grouped exponentials is the
    plain mean of the grouped shifted softmax. -/
theorem avg_eq (X : SX.Idx → EReal) (hX : ∀ i, ∃ r : ℝ, X i = (r : EReal)) (b : Fin 8) (g : Fin 16) :
    kAvg oneHot X b g = rAvg oneHot X b g := by
  unfold kAvg rAvg
  rw [ofBits_inv65536, ofBits_65536, Ideal.div_coe (by norm_num : (65536 : ℝ) ≠ 0),
    sum_rowIx (fun N => kRow oneHot (row X b N) g)]
  rw [Finset.sum_congr rfl (fun N _ => kRow_eq_rRow (row X b N) (fun c => hX _) g)]

end Cert.GroupedMean

end
-- ==== Proof.Finite.lean ====
/-
  The precondition read: every entry of the first argument is a real number.
-/
import proofs.«425599_j89300960018699_3_alg».proof.Defs
import proofs.«425599_j89300960018699_3_alg».proof.Proof.Gen.Pre_finite_inputs
import Idealize.ShloMosaic.Lib.ReduceAll

noncomputable section

namespace Cert.Proof.Finite

open Idealize.ShloMosaic Idealize.SL.Sem

/-- An extended real whose absolute value, read as the larger of it and its negation, compares strictly below the
    pattern of +∞ is the image of a real: both infinities have absolute value ⊤. -/
theorem real_of_abs_olt_inf (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  unfold Ideal.cmp at h
  induction x using EReal.rec with
  | bot => exact absurd h (by simp)
  | top => exact absurd h (by simp)
  | coe r => exact ⟨r, rfl⟩

/-- Under the precondition the logits are finite: each is the image of a real number. -/
theorem arg0_real [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S8x65536x128.Idx) :
    ∃ r : ℝ, (m ((c.tc : Thread Cert.KernelIdeal.nD Cert.KernelIdeal.τ).loc Cert.KernelIdeal.main_arg0) : Cert.KernelIdeal.S8x65536x128.Idx → EReal) i = (r : EReal) := by
  -- a scalar has one index
  haveI : Subsingleton Cert.Pre_finite_inputs.S_.Idx := ⟨fun a b => funext fun d => d.elim0⟩
  -- the predicate at its one index: the conjunction of the two reductions by `and` is 1, so the first is
  have h0 := congrFun (h c) (fun a => a.elim0)
  dsimp only [Cert.Pre_finite_inputs.fn] at h0
  have e := (IntOp.andi_eq_one.1 h0).1
  -- a reduction by `and` over every axis that is 1 met a 1 at every entry: |x| < +∞ there
  have hi := Host.reduce_andi_all _ _ _ _ _ e i
  exact real_of_abs_olt_inf ((m ((c.tc : Thread Cert.KernelIdeal.nD Cert.KernelIdeal.τ).loc Cert.KernelIdeal.main_arg0) : Cert.KernelIdeal.S8x65536x128.Idx → EReal) i) hi

end Cert.Proof.Finite

end
-- ==== Proof.lean ====
/-
  A grouped softmax mean feeding a divergence loss: the kernel streams the [8, 65536, 128] logits tile by tile,
  exponentiates each row WITHOUT subtracting its maximum, sums the exponentials group by group (a product with the 0/1
  membership matrix of sixteen groups of eight classes), normalises by the reciprocal of the total of the sixteen group
  sums, accumulates over the rows and scales by 2⁻¹⁶; the reference takes the shifted softmax of each row, groups it with
  the same membership weights and averages over the 65536 rows. Over the extended reals, on finite logits, the two
  averages are the same [8, 16] array: `exp (x - M) = exp x / exp M` and the factor cancels; every class lies in exactly
  one group, so the total of the group sums is the sum over all classes; 2⁻¹⁶ is exactly 1 / 65536; and a sum may be
  taken in any grouping. Both programs then apply the same operations to that array and to the targets.
  The three frames: the two kernel programs' are their generated frame runs; the reference's is its run with the result
  dropped. The idealization rewrote nothing.
-/
import proofs.«425599_j89300960018699_3_alg».proof.Defs
import proofs.«425599_j89300960018699_3_alg».proof.Proof.Gen.Kernel
import proofs.«425599_j89300960018699_3_alg».proof.Proof.Gen.Kernel.Frame
import proofs.«425599_j89300960018699_3_alg».proof.Proof.Gen.KernelIdeal
import proofs.«425599_j89300960018699_3_alg».proof.Proof.Gen.KernelIdeal.Frame
import proofs.«425599_j89300960018699_3_alg».proof.Proof.Gen.ReferenceIdeal
import proofs.«425599_j89300960018699_3_alg».proof.Proof.Gen.Pre_finite_inputs
import proofs.«425599_j89300960018699_3_alg».proof.Proof.KRun
import proofs.«425599_j89300960018699_3_alg».proof.Proof.RRun
import proofs.«425599_j89300960018699_3_alg».proof.Proof.RValue
import proofs.«425599_j89300960018699_3_alg».proof.Proof.Algebra
import proofs.«425599_j89300960018699_3_alg».proof.Proof.Finite
import Idealize.ShloMosaic.Adequacy
import Idealize.ShloMosaic.Init

noncomputable section

namespace Cert.Proof

open Idealize.ShloMosaic Idealize.ShloMosaic.ValueIdx Idealize.SL.Sem Cert.GroupedMean

/-- The reference's averaged array is the tiled mean, on finite logits: entry by entry the plain mean of the grouped
    shifted softmax is the tiled mean of the post-normalised grouped exponentials. -/
theorem avg_arrays_eq (X : Cert.KernelIdeal.S8x65536x128.Idx → EReal) (hX : ∀ i, ∃ r : ℝ, X i = (r : EReal)) :
    Cert.ReferenceIdeal.avgTerm (F := Ideal) X = kAvgArr X := by
  funext j
  obtain ⟨b, g, rfl⟩ : ∃ (b : Fin 8) (g : Fin 16), j = ix2 b g := ⟨j 0, j 1, eq_ix2 j⟩
  rw [Cert.ReferenceIdeal.RefValue.avgTerm_apply]
  exact (avg_eq X hX b g).symm

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.KRun.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact congrArg (fun a => tail tailFacts a _) (avg_arrays_eq _ (fun i => Finite.arg0_real m hpre c i))

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2) (Cert.ReferenceIdeal.RefRun.run (F := Ideal) m ρ),
    trivial,
    algebraic⟩

end Cert.Proof

end
